-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1024x3072 : Shape := ⟨2, ![1024, 3072]⟩
abbrev S8192x1024 : Shape := ⟨2, ![8192, 1024]⟩
abbrev S8192x3072 : Shape := ⟨2, ![8192, 3072]⟩
abbrev S4x2048x3072 : Shape := ⟨3, ![4, 2048, 3072]⟩
abbrev S1x512x1024 : Shape := ⟨3, ![1, 512, 1024]⟩
abbrev S1x2048x1024 : Shape := ⟨3, ![1, 2048, 1024]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .bf16⟩
  | .hbm, ⟨5, _⟩ => ⟨S1024x3072, .f32⟩
  | .hbm, ⟨6, _⟩ => ⟨S1024x3072, .bf16⟩
  | .hbm, ⟨7, _⟩ => ⟨S8192x1024, .bf16⟩
  | .hbm, ⟨8, _⟩ => ⟨S8192x3072, .bf16⟩
  | .hbm, ⟨9, _⟩ => ⟨S4x2048x3072, .bf16⟩
  | .hbm, ⟨10, _⟩ => ⟨S4x2048x1024, .bf16⟩
  | .hbm, ⟨11, _⟩ => ⟨S4x2048x1024, .bf16⟩
  | .hbm, ⟨12, _⟩ => ⟨S4x2048x1024, .bf16⟩
  | .hbm, ⟨13, _⟩ => ⟨S4x2048x1024, .bf16⟩
  | .hbm, ⟨14, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x1024, .bf16⟩
  | .local _ .vmem, ⟨11, _⟩ => ⟨S1x512x1024, .bf16⟩
  | .local _ .vmem, ⟨12, _⟩ => ⟨S1x512x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  concatenates_S1024x1024_S1024x1024_S1024x1024_S1024x3072_d1 : Shape.Concatenates [S1024x1024, S1024x1024, S1024x1024] S1024x3072 1
  shapeCasts_S4x2048x1024_S8192x1024 : S4x2048x1024.ShapeCasts S8192x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  packedbf16_S1024x3072_S1024x3072_0_0 : (Rect.unit (s := S1024x3072) ![0, 0] S1024x3072.size inb_S1024x3072_S1024x3072_0_0).PackedRows (EltTy.packing .bf16)
  shapeCasts_S8192x3072_S4x2048x3072 : S8192x3072.ShapeCasts S4x2048x3072
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S1x2048x1024 : S1x2048x1024.ShapeCasts S1x2048x1024
  reduces_S1x512x2048_S1x512 : S1x512x2048.Reduces [2] S1x512
  shapeCasts_S1x512_S1x512x1 : S1x512.ShapeCasts S1x512x1
  broadcasts_S1x512x1_S1x512x2048 : S1x512x1.Broadcasts S1x512x2048
  packedbf16_S1x512x1024_S1x512x1024_0_0_0 : (Rect.unit (s := S1x512x1024) ![0, 0, 0] S1x512x1024.size inb_S1x512x1024_S1x512x1024_0_0_0).PackedRows (EltTy.packing .bf16)
  dot_S1024x1024_S1024x3072_S1024x3072_1_0_0_1_n_n_wf : DotDims.WF S1024x1024 S1024x3072 S1024x3072 [1] [0] [0] [1] [] []
  dot_S1x512x1024_S1x2048x1024_S1x512x2048_2_2_1_1_0_0_wf : DotDims.WF S1x512x1024 S1x2048x1024 S1x512x2048 [2] [2] [1] [1] [0] [0]
  dot_S1x512x2048_S1x2048x1024_S1x512x1024_2_1_1_2_0_0_wf : DotDims.WF S1x512x2048 S1x2048x1024 S1x512x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x1024.size a
  hwx1_0 : ∀ i : grid1.Coords, EltTy.bits .bf16 = 32 ∨ (Rect.block (s := S4x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x1024.size a
  hwx1_3 : ∀ i : grid1.Coords, EltTy.bits .bf16 = 32 ∨ (Rect.block (s := S4x2048x1024) S1x512x1024.size (cc1_transform_3 i) (hinb1_3 i)).WholeWords (EltTy.packing .bf16)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S1x512x1024_S1x2048x1024_S1x512x2048_2_2_1_1_0_0 : DotDims S1x512x1024 S1x2048x1024 S1x512x2048 where
  lhsContracting := [2]
  rhsContracting := [2]
  lhsNonContracting := [1]
  rhsNonContracting := [1]
  lhsBatch := [0]
  rhsBatch := [0]
  wf := dot_S1x512x1024_S1x2048x1024_S1x512x2048_2_2_1_1_0_0_wf
def dot_S1x512x2048_S1x2048x1024_S1x512x1024_2_1_1_2_0_0 : DotDims S1x512x2048 S1x2048x1024 S1x512x1024 where
  lhsContracting := [2]
  rhsContracting := [1]
  lhsNonContracting := [1]
  rhsNonContracting := [2]
  lhsBatch := [0]
  rhsBatch := [0]
  wf := dot_S1x512x2048_S1x2048x1024_S1x512x1024_2_1_1_2_0_0_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KRegion0.lean ====
/-
  The projection region (the first pallas_call) at region-entry contents `V`: at grid point t the body
  loads the t-th block of 1024 rows of the flattened activations and the whole fused weight matrix,
  multiplies them into a zero accumulator and stores the product as the t-th block of 1024 output rows.
  Here: what each window's staging buffer holds after the body, the body's triple, the proof data of
  the pipeline and the body obligation at every grid point.
-/
import proofs.«157833_j65481071395957_1_alg».proof.Proof.Gen.Kernel.Launch
import proofs.«157833_j65481071395957_1_alg».proof.Proof.Gen.Kernel.Skeleton
import proofs.«157833_j65481071395957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its (one) block at every point, fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0

/-- The output window's staging buffer after the body: its one store, of the product of the two loaded blocks. -/
def out0_2 (x0 : Vec F S1024x1024 .bf16) (x1 : Vec F S1024x3072 .bf16) : Vec F S1024x3072 .bf16 :=
  View.canon [⟨r0_1, k0_pay1 (View.ld x0 r0_0) (View.ld x1 r0_1)⟩]

theorem cover0_2 (p0 : Vec F S1024x3072 .bf16) (y : S1024x3072.Idx) :
    ∃ pc ∈ ([⟨r0_1, p0⟩] : List (View.Piece (Elt F) S1024x3072 .bf16)), y ∈ pc.1.set :=
  View.cover_of_tiled [⟨r0_1, p0⟩] S1024x3072.size (by rfl) y

set_option maxHeartbeats 1000000 in
/-- The body on whole staging memrefs: the inputs' contents stay, the output's becomes `out0_2` of them. -/
theorem sound_kernel0 (c : Dev nD) (E : Set ℕ) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.Kernel.Hand

end
-- ==== Proof.KRegion1.lean ====
/-
  The attention region (the second pallas_call) at region-entry contents `V`: at grid point (b, qi) the
  body loads the qi-th block of 512 query rows of batch element b and all 2048 key rows and value rows
  of b, forms the softmax of the scaled query–key products along the keys, multiplies by the values and
  stores the 512 result rows. Here: what each window's staging buffer holds after the body, the body's
  triple, the proof data of the pipeline and the body obligation at every grid point.
-/
import proofs.«157833_j65481071395957_1_alg».proof.Proof.Gen.Kernel.Launch
import proofs.«157833_j65481071395957_1_alg».proof.Proof.Gen.Kernel.Skeleton
import proofs.«157833_j65481071395957_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' window holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' window holds its block at every point, fetched only when the batch element changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' window likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x512x1024 := Rect.unit (s := S1x512x1024) ![0, 0, 0] S1x512x1024.size inb_S1x512x1024_S1x512x1024_0_0_0
abbrev r1_1 : Rect S1x2048x1024 := Rect.unit (s := S1x2048x1024) ![0, 0, 0] S1x2048x1024.size inb_S1x2048x1024_S1x2048x1024_0_0_0

/-- The output window's staging buffer after the body: its one store, of the attention of the three loaded blocks. -/
def out1_3 (x0 : Vec F S1x512x1024 .bf16) (x1 x2 : Vec F S1x2048x1024 .bf16) : Vec F S1x512x1024 .bf16 :=
  View.canon [⟨r1_0, k1_pay1 (View.ld x0 r1_0) (View.ld x1 r1_1) (View.ld x2 r1_1)⟩]

theorem cover1_3 (p0 : Vec F S1x512x1024 .bf16) (y : S1x512x1024.Idx) :
    ∃ pc ∈ ([⟨r1_0, p0⟩] : List (View.Piece (Elt F) S1x512x1024 .bf16)), y ∈ pc.1.set :=
  View.cover_of_tiled [⟨r1_0, p0⟩] S1x512x1024.size (by rfl) y

set_option maxHeartbeats 1000000 in
/-- The body on whole staging memrefs: the inputs' contents stay, the output's becomes `out1_3` of them. -/
theorem sound_kernel1 (c : Dev nD) (E : Set ℕ) (i : grid1.Coords) (arg2 : Memref sig .tc .vmem S1x512x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x512x1024 .bf16) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun.lean ====
/-
  The whole program's run at any float instance: @main is five items — the host operations that cast
  the inputs and fuse the three weight matrices, the projection region, the host operations that cut
  the fused product into queries, keys and values, the attention region, the final cast — and the
  buffers' contents at each boundary are a fold from the launch memory: a host stretch applies its
  operations, a region leaves its output array at what its write-backs fold to and every other buffer
  as entered. Every weakly fair execution terminates without a fault, the result buffer holds the last
  fold's value, and the four argument arrays hold what they were launched with.
-/
import proofs.«157833_j65481071395957_1_alg».proof.Proof.KRegion0
import proofs.«157833_j65481071395957_1_alg».proof.Proof.KRegion1
import proofs.«157833_j65481071395957_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: the attention region's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ## No item writes an argument -/

/-- A buffer that no host stretch writes and that is no window's array of either region ends as launched. -/
theorem W5_kept (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_kept m ρ c main_arg0 (by decide) (by decide) (by decide) (by decide) (by decide)
theorem W5_main_arg1 (c : Dev nD) : W5 m ρ c (Proc.devRef .tc main_arg1) = m ((c : Thread nD τ).loc main_arg1) :=
  W5_kept m ρ c main_arg1 (by decide) (by decide) (by decide) (by decide) (by decide)
theorem W5_main_arg2 (c : Dev nD) : W5 m ρ c (Proc.devRef .tc main_arg2) = m ((c : Thread nD τ).loc main_arg2) :=
  W5_kept m ρ c main_arg2 (by decide) (by decide) (by decide) (by decide) (by decide)
theorem W5_main_arg3 (c : Dev nD) : W5 m ρ c (Proc.devRef .tc main_arg3) = m ((c : Thread nD τ).loc main_arg3) :=
  W5_kept m ρ c main_arg3 (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- The projection region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- The run: termination without a fault, the result buffer at the last fold's value, the arguments as launched. -/
theorem run_main : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Kernel.Hand

end
-- ==== Proof.KIRegion0.lean ====
/-
  The projection region (the first pallas_call) at region-entry contents `V`: at grid point t the body
  loads the t-th block of 1024 rows of the flattened activations and the whole fused weight matrix,
  multiplies them into a zero accumulator and stores the product as the t-th block of 1024 output rows.
  Here: what each window's staging buffer holds after the body, the body's triple, the proof data of
  the pipeline and the body obligation at every grid point.
-/
import proofs.«157833_j65481071395957_1_alg».proof.Proof.Gen.KernelIdeal.Launch
import proofs.«157833_j65481071395957_1_alg».proof.Proof.Gen.KernelIdeal.Skeleton
import proofs.«157833_j65481071395957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' window holds its (one) block at every point, fetched at the first only. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x3072 := Rect.unit (s := S1024x3072) ![0, 0] S1024x3072.size inb_S1024x3072_S1024x3072_0_0

/-- The output window's staging buffer after the body: its one store, of the product of the two loaded blocks. -/
def out0_2 (x0 : Vec F S1024x1024 .bf16) (x1 : Vec F S1024x3072 .bf16) : Vec F S1024x3072 .bf16 :=
  View.canon [⟨r0_1, k0_pay1 (View.ld x0 r0_0) (View.ld x1 r0_1)⟩]

theorem cover0_2 (p0 : Vec F S1024x3072 .bf16) (y : S1024x3072.Idx) :
    ∃ pc ∈ ([⟨r0_1, p0⟩] : List (View.Piece (Elt F) S1024x3072 .bf16)), y ∈ pc.1.set :=
  View.cover_of_tiled [⟨r0_1, p0⟩] S1024x3072.size (by rfl) y

set_option maxHeartbeats 1000000 in
/-- The body on whole staging memrefs: the inputs' contents stay, the output's becomes `out0_2` of them. -/
theorem sound_kernel0 (c : Dev nD) (E : Set ℕ) (i : grid0.Coords) (arg1 : Memref sig .tc .vmem S1024x1024 .bf16) (harg1 : arg1.IsWhole)
    (arg2 : Memref sig .tc .vmem S1024x3072 .bf16) (harg2 : arg2.IsWhole) (arg3 : Memref sig .tc .vmem S1024x3072 .bf16) (harg3 : arg3.IsWhole)
    (x0 : Vec F S1024x1024 .bf16) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region

end Cert.KernelIdeal.Hand

end
-- ==== Proof.KIRegion1.lean ====
/-
  The attention region (the second pallas_call) at region-entry contents `V`: at grid point (b, qi) the
  body loads the qi-th block of 512 query rows of batch element b and all 2048 key rows and value rows
  of b, forms the softmax of the scaled query–key products along the keys, multiplies by the values and
  stores the 512 result rows. Here: what each window's staging buffer holds after the body, the body's
  triple, the proof data of the pipeline and the body obligation at every grid point.
-/
import proofs.«157833_j65481071395957_1_alg».proof.Proof.Gen.KernelIdeal.Launch
import proofs.«157833_j65481071395957_1_alg».proof.Proof.Gen.KernelIdeal.Skeleton
import proofs.«157833_j65481071395957_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The queries' window holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' window holds its block at every point, fetched only when the batch element changes. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' window likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x512x1024 := Rect.unit (s := S1x512x1024) ![0, 0, 0] S1x512x1024.size inb_S1x512x1024_S1x512x1024_0_0_0
abbrev r1_1 : Rect S1x2048x1024 := Rect.unit (s := S1x2048x1024) ![0, 0, 0] S1x2048x1024.size inb_S1x2048x1024_S1x2048x1024_0_0_0

/-- The output window's staging buffer after the body: its one store, of the attention of the three loaded blocks. -/
def out1_3 (x0 : Vec F S1x512x1024 .bf16) (x1 x2 : Vec F S1x2048x1024 .bf16) : Vec F S1x512x1024 .bf16 :=
  View.canon [⟨r1_0, k1_pay1 (View.ld x0 r1_0) (View.ld x1 r1_1) (View.ld x2 r1_1)⟩]

theorem cover1_3 (p0 : Vec F S1x512x1024 .bf16) (y : S1x512x1024.Idx) :
    ∃ pc ∈ ([⟨r1_0, p0⟩] : List (View.Piece (Elt F) S1x512x1024 .bf16)), y ∈ pc.1.set :=
  View.cover_of_tiled [⟨r1_0, p0⟩] S1x512x1024.size (by rfl) y

set_option maxHeartbeats 1000000 in
/-- The body on whole staging memrefs: the inputs' contents stay, the output's becomes `out1_3` of them. -/
theorem sound_kernel1 (c : Dev nD) (E : Set ℕ) (i : grid1.Coords) (arg2 : Memref sig .tc .vmem S1x512x1024 .bf16) (harg2 : arg2.IsWhole)
    (arg3 : Memref sig .tc .vmem S1x2048x1024 .bf16) (harg3 : arg3.IsWhole) (arg4 : Memref sig .tc .vmem S1x2048x1024 .bf16) (harg4 : arg4.IsWhole)
    (arg5 : Memref sig .tc .vmem S1x512x1024 .bf16) (harg5 : arg5.IsWhole)
    (x0 : Vec F S1x512x1024 .bf16) (x1 x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.KIRun.lean ====
/-
  The whole program's run at any float instance: @main is five items — the host operations that cast
  the inputs and fuse the three weight matrices, the projection region, the host operations that cut
  the fused product into queries, keys and values, the attention region, the final cast — and the
  buffers' contents at each boundary are a fold from the launch memory: a host stretch applies its
  operations, a region leaves its output array at what its write-backs fold to and every other buffer
  as entered. Every weakly fair execution terminates without a fault, the result buffer holds the last
  fold's value, and the four argument arrays hold what they were launched with.
-/
import proofs.«157833_j65481071395957_1_alg».proof.Proof.KIRegion0
import proofs.«157833_j65481071395957_1_alg».proof.Proof.KIRegion1
import proofs.«157833_j65481071395957_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: the projection region's entry. -/
abbrev W1 : Dev nD → Valuation τ sig (Elt F) := fun c => StableHlo.after hostOps0 (W0 m ρ c)
abbrev E1 : (c : Dev nD) → (b : Ref sig .tc) → Buf (Elt F) ((c : Thread nD τ).loc b) := fun c b => W1 m ρ c b
/-- At the projection region's exit. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev E2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = E2 m ρ c (Pipeline.arrRef spec0 w) :=
  (W2_arr m ρ c w).symm
theorem hrest0 (c : Dev nD) : ∀ b, b ∉ Finset.univ.image (Pipeline.arrRef spec0) → E2 m ρ c b = E1 m ρ c b :=
  fun b hb => W2_of_ne m ρ c b fun w e => hb (Finset.mem_image.mpr ⟨w, Finset.mem_univ _, e⟩)

/-- After the second host stretch: the attention region's entry. -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At the attention region's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev E4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = E4 m ρ c (Pipeline.arrRef spec1 w) :=
  (W4_arr m ρ c w).symm
theorem hrest1 (c : Dev nD) : ∀ b, b ∉ Finset.univ.image (Pipeline.arrRef spec1) → E4 m ρ c b = E3 m ρ c b :=
  fun b hb => W4_of_ne m ρ c b fun w e => hb (Finset.mem_image.mpr ⟨w, Finset.mem_univ _, e⟩)

/-- After the last host stretch: the end. -/
abbrev W5 : Dev nD → Valuation τ sig (Elt F) := fun c => StableHlo.after hostOps2 (W4 m ρ c)

/-! ## No item writes an argument -/

/-- A buffer that no host stretch writes and that is no window's array of either region ends as launched. -/
theorem W5_kept (c : Dev nD) (r : Ref sig .tc) (h0 : r ∉ hostOps0_W) (h1 : r ∉ hostOps1_W) (h2 : r ∉ hostOps2_W)
    (hw0 : ∀ w, Pipeline.arrRef spec0 w ≠ r) (hw1 : ∀ w, Pipeline.arrRef spec1 w ≠ r) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_of_ne m ρ c r hw1
    _ = W2 m ρ c (Proc.devRef .tc r) := StableHlo.after_of_writes_sub hostOps1 _ hostOps1_writes h1
    _ = W1 m ρ c (Proc.devRef .tc r) := W2_of_ne m ρ c r hw0
    _ = W0 m ρ c (Proc.devRef .tc r) := StableHlo.after_of_writes_sub hostOps0 _ hostOps0_writes h0
    _ = m ((c : Thread nD τ).loc r) := rfl

theorem W5_main_arg0 (c : Dev nD) : W5 m ρ c (Proc.devRef .tc main_arg0) = m ((c : Thread nD τ).loc main_arg0) :=
  W5_kept m ρ c main_arg0 (by decide) (by decide) (by decide) (by decide) (by decide)
theorem W5_main_arg1 (c : Dev nD) : W5 m ρ c (Proc.devRef .tc main_arg1) = m ((c : Thread nD τ).loc main_arg1) :=
  W5_kept m ρ c main_arg1 (by decide) (by decide) (by decide) (by decide) (by decide)
theorem W5_main_arg2 (c : Dev nD) : W5 m ρ c (Proc.devRef .tc main_arg2) = m ((c : Thread nD τ).loc main_arg2) :=
  W5_kept m ρ c main_arg2 (by decide) (by decide) (by decide) (by decide) (by decide)
theorem W5_main_arg3 (c : Dev nD) : W5 m ρ c (Proc.devRef .tc main_arg3) = m ((c : Thread nD τ).loc main_arg3) :=
  W5_kept m ρ c main_arg3 (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as items -/

set_option backward.isDefEq.respectTransparency.types false in
/-- The projection region: entered from every unscoped buffer at `W1`, left at `W2`. -/
def reg0 : Pipeline.RegionSeg (pcfgs (F := F)) adm' (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. -/
def reg1 : Pipeline.RegionSeg (pcfgs (F := F)) adm' (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the launch -/

abbrev segs : List (Pipeline.Seg (pcfgs (F := F)) adm' (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- The run: termination without a fault, the result buffer at the last fold's value, the arguments as launched. -/
theorem run_main : θ_run defs (onTc (τ := τ) (main (F := F))) ⟨m, fun _ => 0, ρ⟩ (fun r => ∀ c : Dev nD,
      r.2.mem ((c.tc : Thread nD τ).loc main_v10) = W5 m ρ c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm' (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v10 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.KernelIdeal.Hand

end
-- ==== Proof.RefFrame.lean ====
/-
  The reference program's frame: its run, read back one host operation at a time, ends with every
  argument array as it was launched.
-/
import proofs.«157833_j65481071395957_1_alg».proof.Defs
import proofs.«157833_j65481071395957_1_alg».proof.Proof.Gen.ReferenceIdeal.Run
import proofs.«157833_j65481071395957_1_alg».proof.Proof.Gen.ReferenceIdeal.Read
import proofs.«157833_j65481071395957_1_alg».proof.Proof.Gen.ReferenceIdeal
import proofs.«157833_j65481071395957_1_alg».proof.Proof.Gen.Pre_finite_inputs

noncomputable section

open Idealize.ShloMosaic Idealize.ShloMosaic.TcCoe Idealize.SL.Sem

namespace Cert.Proof.Reference

theorem frame_ri : Cert.frame_ReferenceIdeal := fun m ρ _ =>
  (θ_run Cert.ReferenceIdeal.defs _ _).mono (fun _ h c => (h c).2) (Cert.ReferenceIdeal.Value.run (F := Ideal) m ρ)

end Cert.Proof.Reference

end
-- ==== Proof.Frames.lean ====
/-
  The three frame claims. Each kernel program's frame is its run with the result dropped: the run ends,
  faults nowhere, and leaves the four argument arrays as launched. The reference's frame is its run read
  back, with the result dropped likewise.
-/
import proofs.«157833_j65481071395957_1_alg».proof.Defs
import proofs.«157833_j65481071395957_1_alg».proof.Proof.Gen.Kernel
import proofs.«157833_j65481071395957_1_alg».proof.Proof.Gen.KernelIdeal
import proofs.«157833_j65481071395957_1_alg».proof.Proof.Gen.ReferenceIdeal
import proofs.«157833_j65481071395957_1_alg».proof.Proof.Gen.Pre_finite_inputs
import proofs.«157833_j65481071395957_1_alg».proof.Proof.KRun
import proofs.«157833_j65481071395957_1_alg».proof.Proof.KIRun
import proofs.«157833_j65481071395957_1_alg».proof.Proof.RefFrame

noncomputable section

open Idealize.ShloMosaic Idealize.ShloMosaic.TcCoe Idealize.SL.Sem

namespace Cert.Proof.Frames

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

end Cert.Proof.Frames

end
-- ==== Proof.Spec.lean ====
/-
  What both programs compute, as functions on the extended reals.

  The three projections are plain matrix products of the activations x[b, s, ·] with a weight matrix.
  One row of attention takes a query row q, the key rows k and the value rows v of one batch element:
  the logits are the inner products q·k_j scaled by 2⁻⁵, the weights are exp(logit_j − M) with M the
  maximum of the logits (taken from −∞, and once more against −∞), and the result is the sum over j of
  weight_j / (Σ weights) times v_j. The whole result applies a row of attention to the projected rows.
-/
import Idealize.ShloMosaic.PureOps.Ideal.Laws
import Idealize.ShloMosaic.Lib.ValueIdx

noncomputable section

namespace Cert.Spec

open Idealize.ShloMosaic Idealize.ShloMosaic.ValueIdx

/-- The f32 word of −∞, kept as a word: both programs spell it. -/
abbrev negInf : EReal := Ideal.ofBits .f32 0xFF800000#32
/-- The f32 word of 2⁻⁵ = 1/32 = 1/√1024, kept as a word. -/
abbrev scale : EReal := Ideal.ofBits .f32 0x3D000000#32

/-- Entry (b, s, e) of the activations times a weight matrix. -/
def proj (x : (⟨3, ![4, 2048, 1024]⟩ : Shape).Idx → EReal) (w : (⟨2, ![1024, 1024]⟩ : Shape).Idx → EReal)
    (b : Fin 4) (s : Fin 2048) (e : Fin 1024) : EReal :=
  ∑ k : Fin 1024, x (ix3 b s k) * w (ix2 k e)

/-- The scaled logit of a query row against key row j. -/
def logit (q : Fin 1024 → EReal) (k : Fin 2048 → Fin 1024 → EReal) (j : Fin 2048) : EReal :=
  (∑ e : Fin 1024, q e * k j e) * scale

/-- The maximum of a row of logits, as softmax takes it. -/
def rowMax (S : Fin 2048 → EReal) : EReal :=
  max negInf ((Finset.univ : Finset (Fin 2048)).fold max negInf S)

/-- The unnormalised weight of key j. -/
def weight (S : Fin 2048 → EReal) (j : Fin 2048) : EReal :=
  Ideal.exp (S j - rowMax S)

/-- One row of attention, at output feature d. -/
def attnRow (q : Fin 1024 → EReal) (k v : Fin 2048 → Fin 1024 → EReal) (d : Fin 1024) : EReal :=
  ∑ j : Fin 2048, Ideal.div (weight (logit q k) j) (∑ j' : Fin 2048, weight (logit q k) j') * v j d

/-- The result at (b, s, d). -/
def out (x : (⟨3, ![4, 2048, 1024]⟩ : Shape).Idx → EReal) (wq wk wv : (⟨2, ![1024, 1024]⟩ : Shape).Idx → EReal)
    (b : Fin 4) (s : Fin 2048) (d : Fin 1024) : EReal :=
  attnRow (proj x wq b s) (proj x wk b) (proj x wv b) d

/-- The whole result array. -/
def G (x : (⟨3, ![4, 2048, 1024]⟩ : Shape).Idx → EReal) (wq wk wv : (⟨2, ![1024, 1024]⟩ : Shape).Idx → EReal) :
    (⟨3, ![4, 2048, 1024]⟩ : Shape).Idx → EReal :=
  fun i => out x wq wk wv (i 0) (i 1) (i 2)

theorem G_apply (x : (⟨3, ![4, 2048, 1024]⟩ : Shape).Idx → EReal) (wq wk wv : (⟨2, ![1024, 1024]⟩ : Shape).Idx → EReal)
    (b : Fin 4) (s : Fin 2048) (d : Fin 1024) : G x wq wk wv (ix3 b s d) = out x wq wk wv b s d := rfl

end Cert.Spec

end
-- ==== Proof.Consts.lean ====
/-
  The float constants the two programs spell, as the extended reals their words denote.

  The zero word denotes 0. The reference divides the logits by the square root of the word of 1024, the
  specification multiplies them by the word of 2⁻⁵: since 1024 = 32², the square root is 32 and the quotient by it
  is the product with 1/32, at the infinities too.
-/
import Idealize.ShloMosaic.PureOps.Ideal

noncomputable section

namespace Cert.Consts

open Idealize.ShloMosaic

/-- The word of `+0.0` denotes `0`. -/
theorem ofBits_zero : Ideal.ofBits .f32 0x00000000#32 = 0 := by
  simp [Ideal.ofBits, Ideal.ieee]

/-- The word of `1024.0` denotes the real `1024`. -/
theorem ofBits_1024 : Ideal.ofBits .f32 0x44800000#32 = ((1024 : ℝ) : EReal) := by
  simp [Ideal.ofBits, Ideal.ieee, -EReal.coe_mul]; norm_num

/-- The word of `2⁻⁵` denotes the real `1/32`. -/
theorem ofBits_inv32 : Ideal.ofBits .f32 0x3D000000#32 = ((1 / 32 : ℝ) : EReal) := by
  simp [Ideal.ofBits, Ideal.ieee, -EReal.coe_mul]; norm_num

/-- `√1024 = 32`. -/
theorem sqrt_1024 : Real.sqrt 1024 = 32 := by
  rw [show (1024 : ℝ) = 32 ^ 2 by norm_num]
  exact Real.sqrt_sq (by norm_num)

/-- Dividing by `√1024` is multiplying by `2⁻⁵`, whatever the dividend. -/
theorem div_sqrt_1024 (y : EReal) :
    Ideal.div y (Ideal.sqrt (Ideal.ofBits .f32 0x44800000#32)) = y * Ideal.ofBits .f32 0x3D000000#32 := by
  rw [ofBits_1024, ofBits_inv32, Ideal.sqrt_coe, if_neg (by norm_num), sqrt_1024]
  exact Ideal.div_coe (by norm_num) y

end Cert.Consts

end
-- ==== Proof.RefIsSpec.lean ====
/-
  The reference program computes the specification.

  Read one operation at a time, the reference's result at (b, s, d) is the sum over the key position j of a quotient
  times the projected value row; the quotient is the weight exp(logit_j − M) over the sum of the weights, M the row's
  maximum taken from −∞ and once more against −∞; the logit is the inner product of the projected query and key rows
  divided by √1024, which is the product with 2⁻⁵; each projection is the sum over k of an activation times a weight.
  That is the specification's `out`, stage by stage.
-/
import proofs.«157833_j65481071395957_1_alg».proof.Proof.Spec
import proofs.«157833_j65481071395957_1_alg».proof.Proof.Consts
import proofs.«157833_j65481071395957_1_alg».proof.Proof.Gen.ReferenceIdeal.Read

noncomputable section

namespace Cert.RefSpec

open Cert.ReferenceIdeal Cert.ReferenceIdeal.Gen Cert.ReferenceIdeal.Read Cert.Spec
open Idealize.ShloMosaic Idealize.ShloMosaic.ValueIdx

/-- The activations' contents. -/
abbrev Act : Type := (⟨S4x2048x1024, .f32⟩ : BufTy).Contents (Elt Ideal)
/-- A weight matrix's contents. -/
abbrev Wt : Type := (⟨S1024x1024, .f32⟩ : BufTy).Contents (Elt Ideal)

/-! ## The three projections -/

/-- The query projection at (b, s, e). -/
theorem q_at (x0 : Act) (x1 : Wt) (b : Fin 4) (s : Fin 2048) (e : Fin 1024) :
    val_main_v0 (F := Ideal) x0 x1 (ix3 b s e) = proj x0 x1 b s e := by
  rw [val_main_v0_apply]
  unfold proj
  refine Finset.sum_congr rfl fun k _ => ?_
  have hl : lidx_main_v0 (ix3 b s e) k = ix3 b s k :=
    funext fun a => Fin.ext (by match a with | ⟨0, _⟩ => rfl | ⟨1, _⟩ => rfl | ⟨2, _⟩ => rfl)
  have hr : ridx_main_v0 (ix3 b s e) k = ix2 k e :=
    funext fun a => Fin.ext (by match a with | ⟨0, _⟩ => rfl | ⟨1, _⟩ => rfl)
  rw [hl, hr]

/-- The key projection at (b, j, e). -/
theorem k_at (x0 : Act) (x2 : Wt) (b : Fin 4) (j : Fin 2048) (e : Fin 1024) :
    val_main_v1 (F := Ideal) x0 x2 (ix3 b j e) = proj x0 x2 b j e := by
  rw [val_main_v1_apply]
  unfold proj
  refine Finset.sum_congr rfl fun k _ => ?_
  have hl : lidx_main_v1 (ix3 b j e) k = ix3 b j k :=
    funext fun a => Fin.ext (by match a with | ⟨0, _⟩ => rfl | ⟨1, _⟩ => rfl | ⟨2, _⟩ => rfl)
  have hr : ridx_main_v1 (ix3 b j e) k = ix2 k e :=
    funext fun a => Fin.ext (by match a with | ⟨0, _⟩ => rfl | ⟨1, _⟩ => rfl)
  rw [hl, hr]

/-- The value projection at (b, j, d). -/
theorem v_at (x0 : Act) (x3 : Wt) (b : Fin 4) (j : Fin 2048) (d : Fin 1024) :
    val_main_v2 (F := Ideal) x0 x3 (ix3 b j d) = proj x0 x3 b j d := by
  rw [val_main_v2_apply]
  unfold proj
  refine Finset.sum_congr rfl fun k _ => ?_
  have hl : lidx_main_v2 (ix3 b j d) k = ix3 b j k :=
    funext fun a => Fin.ext (by match a with | ⟨0, _⟩ => rfl | ⟨1, _⟩ => rfl | ⟨2, _⟩ => rfl)
  have hr : ridx_main_v2 (ix3 b j d) k = ix2 k d :=
    funext fun a => Fin.ext (by match a with | ⟨0, _⟩ => rfl | ⟨1, _⟩ => rfl)
  rw [hl, hr]

/-! ## The logits -/

/-- The scaled logit of query row (b, s) against key row j: the quotient by √1024 is the product with 2⁻⁵. -/
theorem logit_at (x0 : Act) (x1 x2 : Wt) (b : Fin 4) (s j : Fin 2048) :
    val_main_v6 (F := Ideal) x0 x1 x2 (ix3 b s j) = logit (proj x0 x1 b s) (proj x0 x2 b) j := by
  rw [val_main_v6_apply, val_main_v3_apply, val_main_v5_apply, val_main_v4_apply, val_main_cst_apply]
  simp only [Ideal.hostDivf_def, Ideal.hostUnary_sqrt_def, Ideal.ofBits_def]
  rw [Cert.Consts.div_sqrt_1024]
  unfold logit
  refine congrArg (· * scale) (Finset.sum_congr rfl fun e _ => ?_)
  have hl : lidx_main_v3 (ix3 b s j) e = ix3 b s e :=
    funext fun a => Fin.ext (by match a with | ⟨0, _⟩ => rfl | ⟨1, _⟩ => rfl | ⟨2, _⟩ => rfl)
  have hr : ridx_main_v3 (ix3 b s j) e = ix3 b j e :=
    funext fun a => Fin.ext (by match a with | ⟨0, _⟩ => rfl | ⟨1, _⟩ => rfl | ⟨2, _⟩ => rfl)
  rw [hl, hr, q_at, k_at]

/-! ## The row maximum -/

/-- The reduced index (b, s) with key position j put back is (b, s, j). -/
theorem lift_bs (h : S4x2048x2048.Reduces [2] S4x2048) (b : Fin 4) (s : Fin 2048) (j : Fin (S4x2048x2048.size 2)) :
    h.lift (ix2 b s) j = ix3 b s (⟨j.val, j.isLt⟩ : Fin 2048) :=
  funext fun a => Fin.ext (by match a with | ⟨0, _⟩ => rfl | ⟨1, _⟩ => rfl | ⟨2, _⟩ => rfl)

/-- The host's maximum over the last axis from the word of −∞, at (b, s): the fold of `max` over the key positions. -/
theorem hostMax_at (x : FVec Ideal S4x2048x2048 .f32) (h' : S4x2048x2048.ReducesTo [2] S4x2048) (hu : 0 < S_.numel)
    (b : Fin 4) (s : Fin 2048) :
    Host.reduce (FloatOps.maximumf (F := Ideal) (φ := .f32)) x (constant S_ .f32 0xFF800000#32) h' hu (ix2 b s)
      = (Finset.univ : Finset (Fin 2048)).fold max negInf (fun j => x (ix3 b s j)) := by
  have h : S4x2048x2048.Reduces [2] S4x2048 := by decide
  rw [Host.reduce_eq_fold_single FloatOps.maximumf x _ h' h hu]
  have hf : (x ∘ h.lift (ix2 b s)) = fun j : Fin 2048 => x (ix3 b s j) :=
    funext fun j => congrArg x (lift_bs h b s j)
  exact congrArg (fun f => Finset.fold max negInf f (Finset.univ : Finset (Fin 2048))) hf

/-- The maximum over the key positions, from −∞. -/
theorem fold_at (x0 : Act) (x1 x2 : Wt) (b : Fin 4) (s : Fin 2048) :
    val_main_v7 (F := Ideal) x0 x1 x2 (ix2 b s)
      = (Finset.univ : Finset (Fin 2048)).fold max negInf (logit (proj x0 x1 b s) (proj x0 x2 b)) := by
  unfold val_main_v7 val_main_cst_0
  have hf : (fun j : Fin 2048 => val_main_v6 (F := Ideal) x0 x1 x2 (ix3 b s j))
      = logit (proj x0 x1 b s) (proj x0 x2 b) :=
    funext fun j => logit_at x0 x1 x2 b s j
  generalize val_main_v6 (F := Ideal) x0 x1 x2 = y at hf ⊢
  refine (hostMax_at y reducesTo_S4x2048x2048_S4x2048_d2 h_S_ b s).trans ?_
  exact congrArg (fun f => Finset.fold max negInf f (Finset.univ : Finset (Fin 2048))) hf

/-- The row maximum as softmax takes it: once more against −∞. -/
theorem rowMax_at (x0 : Act) (x1 x2 : Wt) (b : Fin 4) (s : Fin 2048) :
    val_main_v9 (F := Ideal) x0 x1 x2 (ix2 b s) = rowMax (logit (proj x0 x1 b s) (proj x0 x2 b)) := by
  rw [val_main_v9_apply, val_main_v8_apply, val_main_cst_1_apply, fold_at]
  rfl

/-! ## The weights and their sum -/

/-- The unnormalised weight of key position j. -/
theorem weight_at (x0 : Act) (x1 x2 : Wt) (b : Fin 4) (s j : Fin 2048) :
    val_main_v13 (F := Ideal) x0 x1 x2 (ix3 b s j) = weight (logit (proj x0 x1 b s) (proj x0 x2 b)) j := by
  have hi : idx_main_v10 (idx_main_v11 (ix3 b s j)) = ix2 b s :=
    funext fun a => Fin.ext (by match a with | ⟨0, _⟩ => rfl | ⟨1, _⟩ => rfl)
  rw [val_main_v13_apply, val_main_v12_apply, val_main_v11_apply, val_main_v10_apply, hi, rowMax_at, logit_at]
  rfl

/-- The sum of the weights of a row: the zero word plus the sum. -/
theorem weightSum_at (x0 : Act) (x1 x2 : Wt) (b : Fin 4) (s : Fin 2048) :
    val_main_v14 (F := Ideal) x0 x1 x2 (ix2 b s) = ∑ j : Fin 2048, weight (logit (proj x0 x1 b s) (proj x0 x2 b)) j := by
  rw [val_main_v14_apply, val_main_cst_2_apply]
  simp only [Ideal.ofBits_def]
  rw [Cert.Consts.ofBits_zero, zero_add]
  refine Finset.sum_congr rfl fun j _ => ?_
  have hi : idx_main_v14 (ix2 b s) j = ix3 b s j :=
    funext fun a => Fin.ext (by match a with | ⟨0, _⟩ => rfl | ⟨1, _⟩ => rfl | ⟨2, _⟩ => rfl)
  rw [hi, weight_at]

/-- The normalised weight of key position j. -/
theorem prob_at (x0 : Act) (x1 x2 : Wt) (b : Fin 4) (s j : Fin 2048) :
    val_main_v17 (F := Ideal) x0 x1 x2 (ix3 b s j)
      = Ideal.div (weight (logit (proj x0 x1 b s) (proj x0 x2 b)) j)
          (∑ j' : Fin 2048, weight (logit (proj x0 x1 b s) (proj x0 x2 b)) j') := by
  have hi : idx_main_v15 (idx_main_v16 (ix3 b s j)) = ix2 b s :=
    funext fun a => Fin.ext (by match a with | ⟨0, _⟩ => rfl | ⟨1, _⟩ => rfl)
  rw [val_main_v17_apply, val_main_v16_apply, val_main_v15_apply, hi, weightSum_at, weight_at]
  rfl

/-! ## The result -/

/-- The reference's result is the specification's array. -/
theorem ref_eq (x0 : (⟨S4x2048x1024, .f32⟩ : BufTy).Contents (Elt Ideal))
    (x1 x2 x3 : (⟨S1024x1024, .f32⟩ : BufTy).Contents (Elt Ideal)) :
    Cert.ReferenceIdeal.Read.val_main_v18 (F := Ideal) x0 x1 x2 x3 = Cert.Spec.G x0 x1 x2 x3 := by
  funext i
  obtain ⟨b, s, d, rfl⟩ : ∃ (b : Fin 4) (s : Fin 2048) (d : Fin 1024), i = ix3 b s d := ⟨i 0, i 1, i 2, eq_ix3 i⟩
  rw [G_apply, val_main_v18_apply]
  unfold out attnRow
  refine Finset.sum_congr rfl fun j _ => ?_
  have hl : lidx_main_v18 (ix3 b s d) j = ix3 b s j :=
    funext fun a => Fin.ext (by match a with | ⟨0, _⟩ => rfl | ⟨1, _⟩ => rfl | ⟨2, _⟩ => rfl)
  have hr : ridx_main_v18 (ix3 b s d) j = ix3 b j d :=
    funext fun a => Fin.ext (by match a with | ⟨0, _⟩ => rfl | ⟨1, _⟩ => rfl | ⟨2, _⟩ => rfl)
  rw [hl, hr, prob_at, v_at]

end Cert.RefSpec

end
-- ==== Proof.KIAttnPayload.lean ====
/-
  The attention kernel's stored value, read at an index.

  The body of the kernel, as one pure term of its three loaded blocks (a query block of 512 rows and
  the key and value blocks of 2048 rows, 1024 features each), is: the products q·k_j over the 1024
  features, scaled by 2⁻⁵; per row, the maximum of these over the 2048 keys (from −∞, and once more
  against −∞); the exponentials of the differences; per row, their sum; the quotients; and the sum
  over the keys of quotient times value. Each step that is not elementwise is read at an index by
  one small lemma, and the chain of them is one row of attention of the specification.
-/
import proofs.«157833_j65481071395957_1_alg».proof.Proof.Spec
import proofs.«157833_j65481071395957_1_alg».proof.Proof.Gen.KernelIdeal.Skeleton
import Idealize.ShloMosaic.Lib.Pipeline.Value
import Idealize.ShloMosaic.Lib.ValueLayout

noncomputable section

namespace Cert.KernelIdeal.AttnPayload

open Cert.KernelIdeal Cert.KernelIdeal.Gen Idealize.ShloMosaic Idealize.ShloMosaic.ValueIdx Idealize.SL.Sem

/-! ## The first product: query rows against key rows, over the features -/

theorem lhs_qk_0 (i : S1x512x2048.Idx) (c : dot_S1x512x1024_S1x2048x1024_S1x512x2048_2_2_1_1_0_0.contr.Idx) :
    (dot_S1x512x1024_S1x2048x1024_S1x512x2048_2_2_1_1_0_0.lhsIdx i c 0).val = (i 0).val := by
  unfold DotDims.lhsIdx
  rw [dif_pos (show (0 : Fin S1x512x1024.rank) ∈ dot_S1x512x1024_S1x2048x1024_S1x512x2048_2_2_1_1_0_0.lhsBatch by decide)]
  rfl
theorem lhs_qk_1 (i : S1x512x2048.Idx) (c : dot_S1x512x1024_S1x2048x1024_S1x512x2048_2_2_1_1_0_0.contr.Idx) :
    (dot_S1x512x1024_S1x2048x1024_S1x512x2048_2_2_1_1_0_0.lhsIdx i c 1).val = (i 1).val := by
  unfold DotDims.lhsIdx
  rw [dif_neg (show ¬(1 : Fin S1x512x1024.rank) ∈ dot_S1x512x1024_S1x2048x1024_S1x512x2048_2_2_1_1_0_0.lhsBatch by decide), dif_pos (show (1 : Fin S1x512x1024.rank) ∈ dot_S1x512x1024_S1x2048x1024_S1x512x2048_2_2_1_1_0_0.lhsNonContracting by decide)]
  rfl
theorem lhs_qk_2 (i : S1x512x2048.Idx) (c : dot_S1x512x1024_S1x2048x1024_S1x512x2048_2_2_1_1_0_0.contr.Idx) :
    (dot_S1x512x1024_S1x2048x1024_S1x512x2048_2_2_1_1_0_0.lhsIdx i c 2).val = (c ⟨0, by decide⟩).val :=
  dot_S1x512x1024_S1x2048x1024_S1x512x2048_2_2_1_1_0_0.lhsIdx_val_of_single rfl i c
theorem rhs_qk_0 (i : S1x512x2048.Idx) (c : dot_S1x512x1024_S1x2048x1024_S1x512x2048_2_2_1_1_0_0.contr.Idx) :
    (dot_S1x512x1024_S1x2048x1024_S1x512x2048_2_2_1_1_0_0.rhsIdx i c 0).val = (i 0).val := by
  unfold DotDims.rhsIdx
  rw [dif_pos (show (0 : Fin S1x2048x1024.rank) ∈ dot_S1x512x1024_S1x2048x1024_S1x512x2048_2_2_1_1_0_0.rhsBatch by decide)]
  rfl
theorem rhs_qk_1 (i : S1x512x2048.Idx) (c : dot_S1x512x1024_S1x2048x1024_S1x512x2048_2_2_1_1_0_0.contr.Idx) :
    (dot_S1x512x1024_S1x2048x1024_S1x512x2048_2_2_1_1_0_0.rhsIdx i c 1).val = (i 2).val := by
  unfold DotDims.rhsIdx
  rw [dif_neg (show ¬(1 : Fin S1x2048x1024.rank) ∈ dot_S1x512x1024_S1x2048x1024_S1x512x2048_2_2_1_1_0_0.rhsBatch by decide), dif_pos (show (1 : Fin S1x2048x1024.rank) ∈ dot_S1x512x1024_S1x2048x1024_S1x512x2048_2_2_1_1_0_0.rhsNonContracting by decide)]
  rfl
theorem rhs_qk_2 (i : S1x512x2048.Idx) (c : dot_S1x512x1024_S1x2048x1024_S1x512x2048_2_2_1_1_0_0.contr.Idx) :
    (dot_S1x512x1024_S1x2048x1024_S1x512x2048_2_2_1_1_0_0.rhsIdx i c 2).val = (c ⟨0, by decide⟩).val :=
  dot_S1x512x1024_S1x2048x1024_S1x512x2048_2_2_1_1_0_0.rhsIdx_val_of_single rfl i c

/-- The product into the zero accumulator at (0, s, j): the sum over the features e of a(0, s, e) · b(0, j, e). -/
theorem scores_apply (a : FVec Ideal S1x512x1024 .bf16) (b : FVec Ideal S1x2048x1024 .bf16) (s : Fin 512) (j : Fin 2048) :
    matmul dot_S1x512x1024_S1x2048x1024_S1x512x2048_2_2_1_1_0_0 none a b (constant (F := Ideal) S1x512x2048 .f32 0x00000000#32) (ix3 (0 : Fin 1) s j)
      = ∑ e : Fin 1024, a (ix3 (0 : Fin 1) s e) * b (ix3 (0 : Fin 1) j e) := by
  simp only [matmul]
  rw [Ideal.matmul_constant_zero_apply, ← Equiv.sum_comp (contrEquiv1 dot_S1x512x1024_S1x2048x1024_S1x512x2048_2_2_1_1_0_0 1024 rfl rfl).symm]
  refine Finset.sum_congr rfl fun e _ => ?_
  have he := contrEquiv1_symm_val dot_S1x512x1024_S1x2048x1024_S1x512x2048_2_2_1_1_0_0 1024 rfl rfl e
  have el : dot_S1x512x1024_S1x2048x1024_S1x512x2048_2_2_1_1_0_0.lhsIdx (ix3 (0 : Fin 1) s j) ((contrEquiv1 dot_S1x512x1024_S1x2048x1024_S1x512x2048_2_2_1_1_0_0 1024 rfl rfl).symm e) = ix3 (0 : Fin 1) s e := funext fun x => Fin.ext (by
    match x with
    | ⟨0, _⟩ => exact lhs_qk_0 _ _
    | ⟨1, _⟩ => exact lhs_qk_1 _ _
    | ⟨2, _⟩ => exact (lhs_qk_2 _ _).trans he)
  have er : dot_S1x512x1024_S1x2048x1024_S1x512x2048_2_2_1_1_0_0.rhsIdx (ix3 (0 : Fin 1) s j) ((contrEquiv1 dot_S1x512x1024_S1x2048x1024_S1x512x2048_2_2_1_1_0_0 1024 rfl rfl).symm e) = ix3 (0 : Fin 1) j e := funext fun x => Fin.ext (by
    match x with
    | ⟨0, _⟩ => exact rhs_qk_0 _ _
    | ⟨1, _⟩ => exact rhs_qk_1 _ _
    | ⟨2, _⟩ => exact (rhs_qk_2 _ _).trans he)
  rw [el, er]

/-! ## The second product: weights against value rows, over the keys -/

theorem lhs_pv_0 (i : S1x512x1024.Idx) (c : dot_S1x512x2048_S1x2048x1024_S1x512x1024_2_1_1_2_0_0.contr.Idx) :
    (dot_S1x512x2048_S1x2048x1024_S1x512x1024_2_1_1_2_0_0.lhsIdx i c 0).val = (i 0).val := by
  unfold DotDims.lhsIdx
  rw [dif_pos (show (0 : Fin S1x512x2048.rank) ∈ dot_S1x512x2048_S1x2048x1024_S1x512x1024_2_1_1_2_0_0.lhsBatch by decide)]
  rfl
theorem lhs_pv_1 (i : S1x512x1024.Idx) (c : dot_S1x512x2048_S1x2048x1024_S1x512x1024_2_1_1_2_0_0.contr.Idx) :
    (dot_S1x512x2048_S1x2048x1024_S1x512x1024_2_1_1_2_0_0.lhsIdx i c 1).val = (i 1).val := by
  unfold DotDims.lhsIdx
  rw [dif_neg (show ¬(1 : Fin S1x512x2048.rank) ∈ dot_S1x512x2048_S1x2048x1024_S1x512x1024_2_1_1_2_0_0.lhsBatch by decide), dif_pos (show (1 : Fin S1x512x2048.rank) ∈ dot_S1x512x2048_S1x2048x1024_S1x512x1024_2_1_1_2_0_0.lhsNonContracting by decide)]
  rfl
theorem lhs_pv_2 (i : S1x512x1024.Idx) (c : dot_S1x512x2048_S1x2048x1024_S1x512x1024_2_1_1_2_0_0.contr.Idx) :
    (dot_S1x512x2048_S1x2048x1024_S1x512x1024_2_1_1_2_0_0.lhsIdx i c 2).val = (c ⟨0, by decide⟩).val :=
  dot_S1x512x2048_S1x2048x1024_S1x512x1024_2_1_1_2_0_0.lhsIdx_val_of_single rfl i c
theorem rhs_pv_0 (i : S1x512x1024.Idx) (c : dot_S1x512x2048_S1x2048x1024_S1x512x1024_2_1_1_2_0_0.contr.Idx) :
    (dot_S1x512x2048_S1x2048x1024_S1x512x1024_2_1_1_2_0_0.rhsIdx i c 0).val = (i 0).val := by
  unfold DotDims.rhsIdx
  rw [dif_pos (show (0 : Fin S1x2048x1024.rank) ∈ dot_S1x512x2048_S1x2048x1024_S1x512x1024_2_1_1_2_0_0.rhsBatch by decide)]
  rfl
theorem rhs_pv_1 (i : S1x512x1024.Idx) (c : dot_S1x512x2048_S1x2048x1024_S1x512x1024_2_1_1_2_0_0.contr.Idx) :
    (dot_S1x512x2048_S1x2048x1024_S1x512x1024_2_1_1_2_0_0.rhsIdx i c 1).val = (c ⟨0, by decide⟩).val :=
  dot_S1x512x2048_S1x2048x1024_S1x512x1024_2_1_1_2_0_0.rhsIdx_val_of_single rfl i c
theorem rhs_pv_2 (i : S1x512x1024.Idx) (c : dot_S1x512x2048_S1x2048x1024_S1x512x1024_2_1_1_2_0_0.contr.Idx) :
    (dot_S1x512x2048_S1x2048x1024_S1x512x1024_2_1_1_2_0_0.rhsIdx i c 2).val = (i 2).val := by
  unfold DotDims.rhsIdx
  rw [dif_neg (show ¬(2 : Fin S1x2048x1024.rank) ∈ dot_S1x512x2048_S1x2048x1024_S1x512x1024_2_1_1_2_0_0.rhsBatch by decide), dif_pos (show (2 : Fin S1x2048x1024.rank) ∈ dot_S1x512x2048_S1x2048x1024_S1x512x1024_2_1_1_2_0_0.rhsNonContracting by decide)]
  rfl

/-- The product into the zero accumulator at (0, s, d): the sum over the keys j of p(0, s, j) · b(0, j, d). -/
theorem mix_apply (p : FVec Ideal S1x512x2048 .bf16) (b : FVec Ideal S1x2048x1024 .bf16) (s : Fin 512) (d : Fin 1024) :
    matmul dot_S1x512x2048_S1x2048x1024_S1x512x1024_2_1_1_2_0_0 none p b (constant (F := Ideal) S1x512x1024 .f32 0x00000000#32) (ix3 (0 : Fin 1) s d)
      = ∑ j : Fin 2048, p (ix3 (0 : Fin 1) s j) * b (ix3 (0 : Fin 1) j d) := by
  simp only [matmul]
  rw [Ideal.matmul_constant_zero_apply, ← Equiv.sum_comp (contrEquiv1 dot_S1x512x2048_S1x2048x1024_S1x512x1024_2_1_1_2_0_0 2048 rfl rfl).symm]
  refine Finset.sum_congr rfl fun j _ => ?_
  have hj := contrEquiv1_symm_val dot_S1x512x2048_S1x2048x1024_S1x512x1024_2_1_1_2_0_0 2048 rfl rfl j
  have el : dot_S1x512x2048_S1x2048x1024_S1x512x1024_2_1_1_2_0_0.lhsIdx (ix3 (0 : Fin 1) s d) ((contrEquiv1 dot_S1x512x2048_S1x2048x1024_S1x512x1024_2_1_1_2_0_0 2048 rfl rfl).symm j) = ix3 (0 : Fin 1) s j := funext fun x => Fin.ext (by
    match x with
    | ⟨0, _⟩ => exact lhs_pv_0 _ _
    | ⟨1, _⟩ => exact lhs_pv_1 _ _
    | ⟨2, _⟩ => exact (lhs_pv_2 _ _).trans hj)
  have er : dot_S1x512x2048_S1x2048x1024_S1x512x1024_2_1_1_2_0_0.rhsIdx (ix3 (0 : Fin 1) s d) ((contrEquiv1 dot_S1x512x2048_S1x2048x1024_S1x512x1024_2_1_1_2_0_0 2048 rfl rfl).symm j) = ix3 (0 : Fin 1) j d := funext fun x => Fin.ext (by
    match x with
    | ⟨0, _⟩ => exact rhs_pv_0 _ _
    | ⟨1, _⟩ => exact (rhs_pv_1 _ _).trans hj
    | ⟨2, _⟩ => exact rhs_pv_2 _ _)
  rw [el, er]

/-! ## The two reductions over the keys, and the column put back -/

/-- The index over row (0, s) with key j inserted on the reduced axis is (0, s, j). -/
theorem lift_row (h : S1x512x2048.Reduces [2] S1x512) (s : Fin 512) (j : Fin 2048) :
    h.lift (ix2 (0 : Fin 1) s) j = ix3 (0 : Fin 1) s j :=
  funext fun x => Fin.ext (by
    match x with
    | ⟨0, _⟩ => rfl
    | ⟨1, _⟩ => rfl
    | ⟨2, _⟩ => rfl)

/-- The row maximum at (0, s): the fold of max, from the accumulator's value, over the keys. -/
theorem rowMax_apply (x : FVec Ideal S1x512x2048 .f32) (h : S1x512x2048.Reduces [2] S1x512) (hφ : FKind.Formats .f32)
    (hacc : (0xFF800000#32 : BitVec 32) = 0xFF800000#32) (s : Fin 512) :
    multiReduction (F := Ideal) .maximumf [2] S1x512 x 0xFF800000#32 h hφ hacc (ix2 (0 : Fin 1) s)
      = (Finset.univ : Finset (Fin 2048)).fold max (Ideal.ofBits .f32 0xFF800000#32) (fun j => x (ix3 (0 : Fin 1) s j)) := by
  refine (Ideal.multiReduction_maximumf_single x 0xFF800000#32 h hφ hacc (ix2 (0 : Fin 1) s)).trans ?_
  refine congrArg (fun f => (Finset.univ : Finset (Fin 2048)).fold max (Ideal.ofBits .f32 0xFF800000#32) f) ?_
  funext j
  exact congrArg x (lift_row h s j)

/-- The row sum at (0, s): the sum over the keys. -/
theorem rowSum_apply (x : FVec Ideal S1x512x2048 .f32) (h : S1x512x2048.Reduces [2] S1x512) (hφ : FKind.Formats .f32)
    (hacc : (0x00000000#32 : BitVec 32) = 0x00000000#32) (s : Fin 512) :
    multiReduction (F := Ideal) .add [2] S1x512 x 0x00000000#32 h hφ hacc (ix2 (0 : Fin 1) s)
      = ∑ j : Fin 2048, x (ix3 (0 : Fin 1) s j) := by
  refine (Ideal.multiReduction_add_single x 0x00000000#32 h hφ hacc (ix2 (0 : Fin 1) s)).trans ?_
  exact Finset.sum_congr rfl fun j _ => congrArg x (lift_row h s j)

/-- A [1, 512] row vector cast to the column [1, 512, 1] reads, at (0, s, 0), the vector at (0, s). -/
theorem column_apply {α : Type} (y : S1x512.Idx → α) (h : S1x512.ShapeCasts S1x512x1) (s : Fin 512) (u : Fin 1) :
    shapeCast S1x512x1 y h (ix3 (0 : Fin 1) s u) = y (ix2 (0 : Fin 1) s) :=
  shapeCast_apply y h _ _ (by
    have hu : u.val = 0 := by omega
    rw [Shape.rowMajor_val_three, Shape.rowMajor_val_two]
    show 0 * 512 + s.val = (0 * 512 + s.val) * 1 + u.val
    rw [hu, Nat.mul_one, Nat.add_zero])

/-- The column [1, 512, 1] broadcast along the keys reads, at (0, s, j), the column at (0, s, 0). -/
theorem alongKeys_apply {α : Type} (y : S1x512x1.Idx → α) (h : S1x512x1.Broadcasts S1x512x2048) (s : Fin 512) (j : Fin 2048) :
    broadcastTo S1x512x2048 y h (ix3 (0 : Fin 1) s j) = y (ix3 (0 : Fin 1) s (0 : Fin 1)) := by
  refine broadcastTo_apply y h (ix3 (0 : Fin 1) s j) (ix3 (0 : Fin 1) s (0 : Fin 1)) fun ax => ?_
  match ax with
  | ⟨0, _⟩ => rfl
  | ⟨1, _⟩ => rfl
  | ⟨2, _⟩ => rfl

/-- Both together: a per-row value kept as a column and broadcast along the keys is, at (0, s, j), the value of row (0, s). -/
theorem keepdims_apply {α : Type} (y : S1x512.Idx → α) (hc : S1x512.ShapeCasts S1x512x1) (hb : S1x512x1.Broadcasts S1x512x2048)
    (s : Fin 512) (j : Fin 2048) :
    broadcastTo S1x512x2048 (shapeCast S1x512x1 y hc) hb (ix3 (0 : Fin 1) s j) = y (ix2 (0 : Fin 1) s) :=
  (alongKeys_apply _ hb s j).trans (column_apply y hc s 0)

/-! ## One row of softmax, from the scaled scores of that row -/

section Row
variable (s : Fin 512)

/-- The maximum the kernel subtracts, at row (0, s): the specification's row maximum of that row's logits. -/
theorem max_row (X : FVec Ideal S1x512x2048 .f32) (L : Fin 2048 → EReal) (hX : ∀ j, X (ix3 (0 : Fin 1) s j) = L j)
    (h : S1x512x2048.Reduces [2] S1x512) (hφ : FKind.Formats .f32) (hacc : (0xFF800000#32 : BitVec 32) = 0xFF800000#32) :
    maximumf (broadcast S1x512 (Scalar.ofBits (F := Ideal) .f32 0xFF800000#32))
        (multiReduction (F := Ideal) .maximumf [2] S1x512 X 0xFF800000#32 h hφ hacc) (ix2 (0 : Fin 1) s)
      = Cert.Spec.rowMax L := by
  rw [maximumf_apply, broadcast_apply, rowMax_apply]
  unfold Cert.Spec.rowMax
  rw [show (fun j => X (ix3 (0 : Fin 1) s j)) = L from funext hX]
  rfl

/-- The exponential of a logit less the row's maximum, at (0, s, j): the specification's weight of key j. -/
theorem weight_row (X : FVec Ideal S1x512x2048 .f32) (M : FVec Ideal S1x512 .f32) (L : Fin 2048 → EReal)
    (hX : ∀ j, X (ix3 (0 : Fin 1) s j) = L j) (hM : M (ix2 (0 : Fin 1) s) = Cert.Spec.rowMax L)
    (hc : S1x512.ShapeCasts S1x512x1) (hb : S1x512x1.Broadcasts S1x512x2048) (j : Fin 2048) :
    exp (subf X (broadcastTo S1x512x2048 (shapeCast S1x512x1 M hc) hb)) (ix3 (0 : Fin 1) s j) = Cert.Spec.weight L j := by
  show Ideal.exp (X (ix3 (0 : Fin 1) s j) - broadcastTo S1x512x2048 (shapeCast S1x512x1 M hc) hb (ix3 (0 : Fin 1) s j)) = _
  rw [keepdims_apply, hX, hM]
  rfl

/-- A weight over the row's sum of weights, at (0, s, j). -/
theorem share_row (E : FVec Ideal S1x512x2048 .f32) (W : Fin 2048 → EReal) (hE : ∀ j, E (ix3 (0 : Fin 1) s j) = W j)
    (h : S1x512x2048.Reduces [2] S1x512) (hφ : FKind.Formats .f32) (hacc : (0x00000000#32 : BitVec 32) = 0x00000000#32)
    (hc : S1x512.ShapeCasts S1x512x1) (hb : S1x512x1.Broadcasts S1x512x2048) (j : Fin 2048) :
    divf E (broadcastTo S1x512x2048 (shapeCast S1x512x1 (multiReduction (F := Ideal) .add [2] S1x512 E 0x00000000#32 h hφ hacc) hc) hb)
        (ix3 (0 : Fin 1) s j)
      = Ideal.div (W j) (∑ j' : Fin 2048, W j') := by
  rw [divf_apply, keepdims_apply, rowSum_apply, hE]
  rw [show (fun j => E (ix3 (0 : Fin 1) s j)) = W from funext hE]

end Row

/-! ## The stored value at an index -/

/-- The value the attention kernel stores at (0, s, d) is one row of attention of the specification: of the query row s
    of the loaded query block against the loaded key and value blocks, at output feature d. -/
theorem k1_pay1_apply (q : Vec Ideal S1x512x1024 .bf16) (k v : Vec Ideal S1x2048x1024 .bf16) (s : Fin 512) (d : Fin 1024) :
    Gen.k1_pay1 (F := Ideal) q k v (ix3 (0 : Fin 1) s d)
      = Cert.Spec.attnRow (fun e => q (ix3 (0 : Fin 1) s e)) (fun j e => k (ix3 (0 : Fin 1) j e))
          (fun j e => v (ix3 (0 : Fin 1) j e)) d := by
  unfold Gen.k1_pay1
  simp only [shapeCast_self]
  rw [truncf_apply, mix_apply]
  unfold Cert.Spec.attnRow
  refine Finset.sum_congr rfl fun j _ => ?_
  refine congrArg (· * v (ix3 (0 : Fin 1) j d)) ?_
  rw [truncf_apply]
  have hX : ∀ j, mulf (matmul dot_S1x512x1024_S1x2048x1024_S1x512x2048_2_2_1_1_0_0 none q k (constant (F := Ideal) S1x512x2048 .f32 0x00000000#32))
        (broadcast S1x512x2048 (Scalar.ofBits (F := Ideal) .f32 0x3D000000#32)) (ix3 (0 : Fin 1) s j)
      = Cert.Spec.logit (fun e => q (ix3 (0 : Fin 1) s e)) (fun j e => k (ix3 (0 : Fin 1) j e)) j := fun j => by
    rw [mulf_apply, scores_apply, broadcast_apply]
    rfl
  exact share_row s _ _ (fun j' => weight_row s _ _ _ hX (max_row s _ _ hX _ _ _) _ _ j') _ _ _ _ _ j

end Cert.KernelIdeal.AttnPayload

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KIProjPayload.lean ====
/-
  The projection kernel's one stored value at an index: entry (r, j) of the product of the loaded block of
  activations (1024 × 1024) with the loaded weight matrix (1024 × 3072) is the sum over k of x (r, k) · w (k, j).

  At the ideal values the two shape casts are the identity (the shapes agree), the product is taken into the zero
  accumulator with the plain dimension numbers (left contracted on its second axis, right on its first, no batch
  axis), and the truncation to bf16 is the identity.
-/
import proofs.«157833_j65481071395957_1_alg».proof.Proof.LibPlainDot
import proofs.«157833_j65481071395957_1_alg».proof.Proof.Gen.KernelIdeal.Skeleton
import Idealize.ShloMosaic.Lib.Pipeline.Value

noncomputable section

namespace Cert.KernelIdeal.ProjPayload

open Cert.KernelIdeal Cert.KernelIdeal.Gen
open Idealize.ShloMosaic Idealize.ShloMosaic.ValueIdx

/-- Entry (r, j) of the stored product: the inner product of row r of the activations' block with column j of the weights. -/
theorem k0_pay1_apply (x : Vec Ideal S1024x1024 .bf16) (w : Vec Ideal S1024x3072 .bf16) (r : Fin 1024) (j : Fin 3072) :
    Cert.KernelIdeal.Gen.k0_pay1 (F := Ideal) x w (ValueIdx.ix2 r j) = ∑ k : Fin 1024, x (ValueIdx.ix2 r k) * w (ValueIdx.ix2 k j) := by
  unfold Gen.k0_pay1
  simp only [shapeCast_self]
  rw [truncf_apply]
  show matmul (F := Ideal) (φ₁ := .bf16) (φ₂ := .bf16) (DotDims.plain 1024 1024 3072) none x w
      (constant ⟨2, ![1024, 3072]⟩ .f32 0x00000000#32) (ix2 r j) = _
  exact Idealize.ShloMosaic.PlainDot.matmul_zero_apply 1024 1024 3072 (φ₁ := .bf16) (φ₂ := .bf16) none x w (ix2 r j)

end Cert.KernelIdeal.ProjPayload

end
-- ==== Proof.KIProjValue.lean ====
/-
  The projection region's output array after all eight grid points, as one function of the arrays the region is
  entered with: entry (r, j) of the 8192 × 3072 result is the sum over k of activations (r, k) · weights (k, j).

  Point t of the grid reads rows 1024·t … 1024·t + 1023 of the activations and the whole weight matrix, and writes
  rows 1024·t … 1024·t + 1023 of the result: the product of the two loaded blocks. So what point t writes back is
  block t of the whole product, the eight blocks cover the result (row r lies in block r / 1024), and the array
  ends holding the product.
-/
import proofs.«157833_j65481071395957_1_alg».proof.Proof.KIProjPayload
import proofs.«157833_j65481071395957_1_alg».proof.Proof.KIRegion0
import Idealize.ShloMosaic.Lib.Pipeline.Value

set_option maxRecDepth 16384

noncomputable section

namespace Cert.KernelIdeal.ProjValue

open Cert.KernelIdeal Cert.KernelIdeal.Gen Cert.KernelIdeal.Hand Cert.KernelIdeal.ProjPayload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The product of an 8192 × 1024 matrix with a 1024 × 3072 matrix: entry (r, j) is the inner product of row r of the
    first with column j of the second. -/
def product (x : S8192x1024.Idx → EReal) (w : S1024x3072.Idx → EReal) : S8192x3072.Idx → EReal := fun i =>
  ∑ k : Fin 1024, x (ix2 (i 0) k) * w (ix2 k (i 1))

theorem product_apply (x : S8192x1024.Idx → EReal) (w : S1024x3072.Idx → EReal) (r : Fin 8192) (j : Fin 3072) :
    product x w (ix2 r j) = ∑ k : Fin 1024, x (ix2 r k) * w (ix2 k j) := rfl

/-- The whole projection: the flattened activations times the fused weight matrix, as the region finds them. -/
def P : S8192x3072.Idx → EReal := product (V c main_v3) (V c main_v2)

theorem P_eq : P V c = product (V c main_v3) (V c main_v2) := rfl

theorem zero_offsets : (![0, 0] : Fin 2 → Nat) = fun _ => 0 := funext fun a => by fin_cases a <;> rfl

/-- The grid has eight points. -/
theorem point_lt (t : Fin cfg0.N) : t.val < 8 := lt_of_lt_of_eq t.isLt N_0

/-- The block indices at point t: the activations' and the result's blocks are the t-th block of rows, the weights'
    block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t is rows 1024·t … of the activations. -/
theorem act_block_apply (t : Fin cfg0.N) (p k : Fin 1024) (row : Fin 8192) (hrow : row.val = 1024 * t.val + p.val) :
    (iblk0 (F := Ideal) V c 0 t : S1024x1024.Idx → EReal) (ix2 p k) = (V c main_v3 : S8192x1024.Idx → EReal) (ix2 row k) := by
  obtain ⟨e0, e1, -, -, -, -⟩ := block_indices t
  unfold iblk0
  rw [View.read_apply]
  show V c main_v3 _ = V c main_v3 _
  congr 1
  funext a
  apply Fin.ext
  match a with
  | ⟨0, _⟩ => show win0_0.index t (0 : Fin 2) * 1024 + 1 * p.val = row.val; rw [e0, hrow]; omega
  | ⟨1, _⟩ => show win0_0.index t (1 : Fin 2) * 1024 + 1 * k.val = k.val; rw [e1]; omega

/-- The weights' block at every point is the whole weight matrix. -/
theorem wt_block_apply (t : Fin cfg0.N) (k : Fin 1024) (j : Fin 3072) :
    (iblk0 (F := Ideal) V c 1 t : S1024x3072.Idx → EReal) (ix2 k j) = (V c main_v2 : S1024x3072.Idx → EReal) (ix2 k j) := by
  obtain ⟨-, -, e0, e1, -, -⟩ := block_indices t
  unfold iblk0
  rw [View.read_apply]
  show V c main_v2 _ = V c main_v2 _
  congr 1
  funext a
  apply Fin.ext
  match a with
  | ⟨0, _⟩ => show win0_1.index t (0 : Fin 2) * 1024 + 1 * k.val = k.val; rw [e0]; omega
  | ⟨1, _⟩ => show win0_1.index t (1 : Fin 2) * 3072 + 1 * j.val = j.val; rw [e1]; omega

/-- The product of two loaded blocks at (p, j), when the first block is rows 1024·t … of the activations and the
    second the whole weight matrix: entry (1024·t + p, j) of the whole product. -/
theorem block_product_apply (X : S8192x1024.Idx → EReal) (W : S1024x3072.Idx → EReal)
    (x : Vec Ideal S1024x1024 .bf16) (w : Vec Ideal S1024x3072 .bf16) (p : Fin 1024) (j : Fin 3072) (row : Fin 8192)
    (hx : ∀ k : Fin 1024, x (ix2 p k) = X (ix2 row k)) (hw : ∀ k : Fin 1024, w (ix2 k j) = W (ix2 k j)) :
    k0_pay1 (F := Ideal) x w (ix2 p j) = product X W (ix2 row j) := by
  rw [k0_pay1_apply, product_apply]
  exact Finset.sum_congr rfl fun k _ => by rw [hx k, hw k]

/-- What point t writes back is block t of the whole product. -/
theorem proj_block (t : Fin cfg0.N) :
    (dat0 (F := Ideal) V c).flushed 2 t = ((cfg0.win 2).blk t).view.read (Elt Ideal) (P V c) := by
  show (cfg0.win 2).cut (grid0.coords t) ((dat0 (F := Ideal) V c).after 2 t) = _
  rw [after0_2]
  unfold out0_2
  rw [View.canon_unit_zero zero_offsets]
  simp only [View.ld_unit_zero (S := S1024x1024) zero_offsets, View.ld_unit_zero (S := S1024x3072) zero_offsets]
  obtain ⟨-, -, -, -, e0, e1⟩ := block_indices t
  have ht := point_lt t
  funext y
  obtain ⟨p, j, rfl⟩ : ∃ (p : Fin 1024) (j : Fin 3072), y = ix2 p j := ⟨y 0, y 1, eq_ix2 y⟩
  have hemb : ((cfg0.win 2).blk t).view.emb (ix2 p j) = (ix2 (⟨1024 * t.val + p.val, by omega⟩ : Fin 8192) j : S8192x3072.Idx) := by
    funext a
    apply Fin.ext
    match a with
    | ⟨0, _⟩ => show win0_2.index t (0 : Fin 2) * 1024 + 1 * p.val = 1024 * t.val + p.val; rw [e0]; omega
    | ⟨1, _⟩ => show win0_2.index t (1 : Fin 2) * 3072 + 1 * j.val = j.val; rw [e1]; omega
  show k0_pay1 (F := Ideal) (iblk0 V c 0 t) (iblk0 V c 1 t) (ix2 p j) = P V c (((cfg0.win 2).blk t).view.emb (ix2 p j))
  rw [hemb]
  rw [P_eq]
  exact block_product_apply _ _ _ _ p j _ (fun k => act_block_apply V c t p k _ rfl) (fun k => wt_block_apply V c t k j)

/-- An index of the result is in point t's block iff each coordinate is in the block's range on its axis. -/
theorem mem_out_block (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v4).slice (win0_2.rect t)).set ↔ _
  rw [View.set_slice_whole, Rect.mem_set_unit]
  exact Iff.rfl

/-- Every index of the result lies in the block of the point r / 1024, r its row. -/
theorem covered (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  obtain ⟨t, ht⟩ : ∃ t : Fin cfg0.N, t.val = (i 0).val / 1024 := ⟨⟨(i 0).val / 1024, by rw [show cfg0.N = 8 from N_0]; omega⟩, rfl⟩
  obtain ⟨-, -, -, -, e0, e1⟩ := block_indices t
  refine ⟨t, flush0_2 t, ?_⟩
  rw [mem_out_block]
  intro a
  match a with
  | ⟨0, _⟩ => show win0_2.index t (0 : Fin 2) * 1024 ≤ (i 0).val ∧ (i 0).val < win0_2.index t (0 : Fin 2) * 1024 + 1024; rw [e0, ht]; omega
  | ⟨1, _⟩ => show win0_2.index t (1 : Fin 2) * 3072 ≤ (i 1).val ∧ (i 1).val < win0_2.index t (1 : Fin 2) * 3072 + 3072; rw [e1]; omega

/-- The result array after the eight points is the whole product. -/
theorem proj_array : (dat0 (F := Ideal) V c).arrAt 2 cfg0.N = P V c :=
  (dat0 (F := Ideal) V c).arrAt_eq_of_cover 2 (P V c) (fun t _ => proj_block V c t) (covered)

end Cert.KernelIdeal.ProjValue

end
-- ==== Proof.KIAttnValue.lean ====
/-
  The attention region's output array as one function of the three arrays the region is entered with.

  The region runs over a 4 × 4 grid: point (b, qi) takes the qi-th block of 512 query rows of batch
  element b and all 2048 key rows and value rows of b, and writes back the 512 result rows of that block.
  Given that the stored block is, row by row, one row of attention of the loaded blocks, every entry
  (b, r, d) of the result array is the row of attention of query row (b, r) against the keys and values
  of batch element b, at feature d: the point b·4 + r / 512 covers it, its query block read at row
  r mod 512 is the query array at row r, and its key and value blocks are the arrays' rows of b.
-/
import proofs.«157833_j65481071395957_1_alg».proof.Proof.Spec
import proofs.«157833_j65481071395957_1_alg».proof.Proof.KIRegion1
import Idealize.ShloMosaic.Lib.Pipeline.Value

noncomputable section

namespace Cert.KernelIdeal.AttnValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The body's stored block is, at row s and feature d, the row of attention of query row s of the loaded
    query block against the loaded key rows and value rows. -/
def PayloadIsAttnRow : Prop :=
  ∀ (q : Vec Ideal S1x512x1024 .bf16) (k v : Vec Ideal S1x2048x1024 .bf16) (s : Fin 512) (d : Fin 1024),
    Cert.KernelIdeal.Gen.k1_pay1 (F := Ideal) q k v (ValueIdx.ix3 (0 : Fin 1) s d)
      = Cert.Spec.attnRow (fun e => q (ValueIdx.ix3 (0 : Fin 1) s e)) (fun j e => k (ValueIdx.ix3 (0 : Fin 1) j e))
          (fun j e => v (ValueIdx.ix3 (0 : Fin 1) j e)) d

/-- Attention of three whole arrays (queries, keys, values), index by index: entry (b, r, d) is the row of
    attention of query row (b, r) against the key rows and value rows of batch element b, at feature d. -/
def attnOf (Q K W : S4x2048x1024.Idx → EReal) : S4x2048x1024.Idx → EReal := fun i =>
  Cert.Spec.attnRow (fun e => Q (ValueIdx.ix3 (i 0) (i 1) e)) (fun j e => K (ValueIdx.ix3 (i 0) j e))
    (fun j e => W (ValueIdx.ix3 (i 0) j e)) (i 2)

theorem attnOf_apply (Q K W : S4x2048x1024.Idx → EReal) (b : Fin 4) (r : Fin 2048) (d : Fin 1024) :
    attnOf Q K W (ix3 b r d)
      = Cert.Spec.attnRow (fun e => Q (ix3 b r e)) (fun j e => K (ix3 b j e)) (fun j e => W (ix3 b j e)) d := rfl

section Region
variable (V : (c : Dev nD) → (b : Ref sig .tc) → Buf (Elt Ideal) ((c : Thread nD τ).loc b)) (c : Dev nD)

/-- What the result array ends holding: attention of the query, key and value arrays as the region finds them. -/
def A : S4x2048x1024.Idx → EReal := fun i => Cert.Spec.attnRow
  (fun e => (V c main_v6 : S4x2048x1024.Idx → EReal) (ValueIdx.ix3 (i 0) (i 1) e))
  (fun j e => (V c main_v7 : S4x2048x1024.Idx → EReal) (ValueIdx.ix3 (i 0) j e))
  (fun j e => (V c main_v8 : S4x2048x1024.Idx → EReal) (ValueIdx.ix3 (i 0) j e)) (i 2)

theorem A_eq_attnOf : A V c = attnOf (V c main_v6) (V c main_v7) (V c main_v8) := rfl

end Region

theorem zero_offsets : (![0, 0, 0] : Fin 3 → Nat) = fun _ => 0 := funext fun a => by fin_cases a <;> rfl

/-- The printed index maps over the grid: point t is (b, qi) = (t / 4, t mod 4); the queries' and the
    result's block index is (b, qi, 0), the keys' and the values' is (b, 0, 0). -/
theorem block_indices : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

theorem points : cfg1.N = 16 := by decide +kernel

/-- One stored row, with the loaded blocks named by what they are rows of: if row s of the query block is
    query row (b, r) and the key and value blocks are the rows of batch element b, the stored entry (s, d)
    is attention's entry (b, r, d). -/
theorem stored_entry (hpay : PayloadIsAttnRow)
    (q : Vec Ideal S1x512x1024 .bf16) (k v : Vec Ideal S1x2048x1024 .bf16)
    (Q K W : S4x2048x1024.Idx → EReal) (b : Fin 4) (r : Fin 2048) (s : Fin 512) (d : Fin 1024)
    (hq : ∀ e : Fin 1024, q (ix3 (0 : Fin 1) s e) = Q (ix3 b r e))
    (hk : ∀ (j : Fin 2048) (e : Fin 1024), k (ix3 (0 : Fin 1) j e) = K (ix3 b j e))
    (hv : ∀ (j : Fin 2048) (e : Fin 1024), v (ix3 (0 : Fin 1) j e) = W (ix3 b j e)) :
    k1_pay1 (F := Ideal) q k v (ix3 (0 : Fin 1) s d) = attnOf Q K W (ix3 b r d) := by
  have e1 : (fun e => q (ix3 (0 : Fin 1) s e)) = fun e => Q (ix3 b r e) := funext hq
  have e2 : (fun j e => k (ix3 (0 : Fin 1) j e)) = fun j e => K (ix3 b j e) := funext fun j => funext (hk j)
  have e3 : (fun j e => v (ix3 (0 : Fin 1) j e)) = fun j e => W (ix3 b j e) := funext fun j => funext (hv j)
  rw [hpay q k v s d, e1, e2, e3, attnOf_apply]

/-- The same at a block index and an array index given by their coordinates. -/
theorem stored_entry_at (hpay : PayloadIsAttnRow)
    (q : Vec Ideal S1x512x1024 .bf16) (k v : Vec Ideal S1x2048x1024 .bf16)
    (Q K W : S4x2048x1024.Idx → EReal) (y : S1x512x1024.Idx) (i : S4x2048x1024.Idx)
    (hq : ∀ (x : S1x512x1024.Idx) (i' : S4x2048x1024.Idx), (x 1).val = (y 1).val → (i' 0).val = (i 0).val →
      (i' 1).val = (i 1).val → (i' 2).val = (x 2).val → q x = Q i')
    (hk : ∀ (x : S1x2048x1024.Idx) (i' : S4x2048x1024.Idx), (i' 0).val = (i 0).val →
      (i' 1).val = (x 1).val → (i' 2).val = (x 2).val → k x = K i')
    (hv : ∀ (x : S1x2048x1024.Idx) (i' : S4x2048x1024.Idx), (i' 0).val = (i 0).val →
      (i' 1).val = (x 1).val → (i' 2).val = (x 2).val → v x = W i')
    (h2 : (i 2).val = (y 2).val) :
    k1_pay1 (F := Ideal) q k v y = attnOf Q K W i := by
  obtain ⟨y0, s, d, rfl⟩ : ∃ (y0 : Fin 1) (s : Fin 512) (d : Fin 1024), y = ix3 y0 s d := ⟨y 0, y 1, y 2, eq_ix3 y⟩
  obtain ⟨b, r, d', rfl⟩ : ∃ (b : Fin 4) (r : Fin 2048) (d' : Fin 1024), i = ix3 b r d' := ⟨i 0, i 1, i 2, eq_ix3 i⟩
  obtain rfl : y0 = 0 := Subsingleton.elim _ _
  obtain rfl : d = d' := Fin.ext h2.symm
  exact stored_entry hpay q k v Q K W b r s d
    (fun e => hq (ix3 0 s e) (ix3 b r e) rfl rfl rfl rfl)
    (fun j e => hk (ix3 0 j e) (ix3 b j e) rfl rfl rfl)
    (fun j e => hv (ix3 0 j e) (ix3 b j e) rfl rfl rfl)

section Region
variable (V : (c : Dev nD) → (b : Ref sig .tc) → Buf (Elt Ideal) ((c : Thread nD τ).loc b)) (c : Dev nD)

/-- The query block at point t = (b, qi) is rows 512·qi … 512·qi + 511 of batch element b of the query array. -/
theorem query_block (t : Fin cfg1.N) (x : S1x512x1024.Idx) (i : S4x2048x1024.Idx)
    (h0 : (i 0).val = t.val / 4) (h1 : (i 1).val = 512 * (t.val % 4) + (x 1).val) (h2 : (i 2).val = (x 2).val) :
    (iblk1 (F := Ideal) V c 0 t : Vec Ideal S1x512x1024 .bf16) x = (V c main_v6 : S4x2048x1024.Idx → EReal) i := by
  obtain ⟨e0, e1, e2, -⟩ := block_indices t
  unfold iblk1
  rw [View.read_apply]
  show (V c main_v6 : S4x2048x1024.Idx → EReal) (((cfg1.win 0).blk t).view.emb x) = _
  refine congrArg (V c main_v6 : S4x2048x1024.Idx → EReal) (funext fun a => Fin.ext ?_)
  have hx0 : (x 0).val < 1 := (x 0).isLt
  match a with
  | ⟨0, _⟩ => show win1_0.index t (0 : Fin 3) * 1 + 1 * (x 0).val = (i 0).val; omega
  | ⟨1, _⟩ => show win1_0.index t (1 : Fin 3) * 512 + 1 * (x 1).val = (i 1).val; omega
  | ⟨2, _⟩ => show win1_0.index t (2 : Fin 3) * 1024 + 1 * (x 2).val = (i 2).val; omega

/-- The key block at point t = (b, qi) is the 2048 rows of batch element b of the key array. -/
theorem key_block (t : Fin cfg1.N) (x : S1x2048x1024.Idx) (i : S4x2048x1024.Idx)
    (h0 : (i 0).val = t.val / 4) (h1 : (i 1).val = (x 1).val) (h2 : (i 2).val = (x 2).val) :
    (iblk1 (F := Ideal) V c 1 t : Vec Ideal S1x2048x1024 .bf16) x = (V c main_v7 : S4x2048x1024.Idx → EReal) i := by
  obtain ⟨-, -, -, e0, e1, e2, -⟩ := block_indices t
  unfold iblk1
  rw [View.read_apply]
  show (V c main_v7 : S4x2048x1024.Idx → EReal) (((cfg1.win 1).blk t).view.emb x) = _
  refine congrArg (V c main_v7 : S4x2048x1024.Idx → EReal) (funext fun a => Fin.ext ?_)
  have hx0 : (x 0).val < 1 := (x 0).isLt
  match a with
  | ⟨0, _⟩ => show win1_1.index t (0 : Fin 3) * 1 + 1 * (x 0).val = (i 0).val; omega
  | ⟨1, _⟩ => show win1_1.index t (1 : Fin 3) * 2048 + 1 * (x 1).val = (i 1).val; omega
  | ⟨2, _⟩ => show win1_1.index t (2 : Fin 3) * 1024 + 1 * (x 2).val = (i 2).val; omega

/-- The value block at point t = (b, qi) is the 2048 rows of batch element b of the value array. -/
theorem value_block (t : Fin cfg1.N) (x : S1x2048x1024.Idx) (i : S4x2048x1024.Idx)
    (h0 : (i 0).val = t.val / 4) (h1 : (i 1).val = (x 1).val) (h2 : (i 2).val = (x 2).val) :
    (iblk1 (F := Ideal) V c 2 t : Vec Ideal S1x2048x1024 .bf16) x = (V c main_v8 : S4x2048x1024.Idx → EReal) i := by
  obtain ⟨-, -, -, -, -, -, e0, e1, e2, -⟩ := block_indices t
  unfold iblk1
  rw [View.read_apply]
  show (V c main_v8 : S4x2048x1024.Idx → EReal) (((cfg1.win 2).blk t).view.emb x) = _
  refine congrArg (V c main_v8 : S4x2048x1024.Idx → EReal) (funext fun a => Fin.ext ?_)
  have hx0 : (x 0).val < 1 := (x 0).isLt
  match a with
  | ⟨0, _⟩ => show win1_2.index t (0 : Fin 3) * 1 + 1 * (x 0).val = (i 0).val; omega
  | ⟨1, _⟩ => show win1_2.index t (1 : Fin 3) * 2048 + 1 * (x 1).val = (i 1).val; omega
  | ⟨2, _⟩ => show win1_2.index t (2 : Fin 3) * 1024 + 1 * (x 2).val = (i 2).val; omega

end Region

section Array
variable (V : (c : Dev nD) → (b : Ref sig .tc) → Buf (Elt Ideal) ((c : Thread nD τ).loc b)) (c : Dev nD)

/-- What point t writes back is block t of attention of the three arrays. -/
theorem written_back (hpay : PayloadIsAttnRow) (t : Fin cfg1.N) :
    (dat1 (F := Ideal) V c).flushed 3 t = ((cfg1.win 3).blk t).view.read (Elt Ideal) (A V c) := by
  show (cfg1.win 3).cut (grid1.coords t) ((dat1 (F := Ideal) V c).after 3 t) = _
  rw [after1_3]
  unfold out1_3
  rw [View.canon_unit_zero zero_offsets]
  simp only [View.ld_unit_zero (S := S1x512x1024) zero_offsets, View.ld_unit_zero (S := S1x2048x1024) zero_offsets]
  obtain ⟨-, -, -, -, -, -, -, -, -, e0, e1, e2⟩ := block_indices t
  funext j
  have hj0 : (j 0).val < 1 := (j 0).isLt
  have hj1 : (j 1).val < 512 := (j 1).isLt
  have hj2 : (j 2).val < 1024 := (j 2).isLt
  rw [A_eq_attnOf]
  show k1_pay1 (F := Ideal) (iblk1 V c 0 t) (iblk1 V c 1 t) (iblk1 V c 2 t) ((cfg1.win 3).xinj (grid1.coords t) j)
    = attnOf (V c main_v6) (V c main_v7) (V c main_v8) (((cfg1.win 3).blk t).view.emb j)
  have i0 : ((((cfg1.win 3).blk t).view.emb j : S4x2048x1024.Idx) 0).val = t.val / 4 := by
    show win1_3.index t (0 : Fin 3) * 1 + 1 * (j 0).val = _; omega
  have i1 : ((((cfg1.win 3).blk t).view.emb j : S4x2048x1024.Idx) 1).val = 512 * (t.val % 4) + (j 1).val := by
    show win1_3.index t (1 : Fin 3) * 512 + 1 * (j 1).val = _; omega
  have i2 : ((((cfg1.win 3).blk t).view.emb j : S4x2048x1024.Idx) 2).val = (j 2).val := by
    show win1_3.index t (2 : Fin 3) * 1024 + 1 * (j 2).val = _; omega
  refine stored_entry_at hpay (iblk1 V c 0 t) (iblk1 V c 1 t) (iblk1 V c 2 t) (V c main_v6) (V c main_v7) (V c main_v8)
    ((cfg1.win 3).xinj (grid1.coords t) j) (((cfg1.win 3).blk t).view.emb j) ?_ ?_ ?_ i2
  · intro x i' hx h0 h1 h2
    exact query_block V c t x i' (h0.trans i0) (by rw [h1, i1, hx]) h2
  · intro x i' h0 h1 h2
    exact key_block V c t x i' (h0.trans i0) h1 h2
  · intro x i' h0 h1 h2
    exact value_block V c t x i' (h0.trans i0) h1 h2

/-- An index of the result array is in point t's block iff each coordinate is in the block's range on its axis. -/
theorem mem_block (t : Fin cfg1.N) (i : S4x2048x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v9).slice (win1_3.rect t)).set ↔ _
  rw [View.set_slice_whole, Rect.mem_set_unit]
  exact Iff.rfl

/-- Every entry (b, r, d) of the result array is written back by the point b·4 + r / 512. -/
theorem covered (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 16 := points
  let t : Fin cfg1.N := ⟨(i 0).val * 4 + (i 1).val / 512, by rw [hN]; omega⟩
  have ht : t.val = (i 0).val * 4 + (i 1).val / 512 := rfl
  obtain ⟨-, -, -, -, -, -, -, -, -, e0, e1, e2⟩ := block_indices t
  refine ⟨t, flush1_3 t, ?_⟩
  rw [mem_block]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- The result array after the region: attention of the query, key and value arrays as the region finds them. -/
theorem attn_array (hpay : PayloadIsAttnRow) : (dat1 (F := Ideal) V c).arrAt 3 cfg1.N = A V c :=
  (dat1 (F := Ideal) V c).arrAt_eq_of_cover 3 (A V c) (fun t _ => written_back V c hpay t) (covered)

end Array

end Cert.KernelIdeal.AttnValue

end
-- ==== Proof.KIGlue.lean ====
/-
  The host operations of @main read at an index. Before the projection region the activations are
  flattened, row b·2048 + s of the 8192 × 1024 matrix being row s of batch element b, and the three
  weight matrices are set side by side along the columns, column e, e + 1024 and e + 2048 of the fused
  matrix being column e of the query, key and value weights. Between the regions the fused product is
  seen as batch × sequence × columns and cut into three blocks of 1024 columns. At the end the
  attention region's output is widened. A format change is the identity on the extended reals, so each
  buffer such a stretch writes holds, index by index, one entry of a buffer the stretch entered with.
-/
import proofs.«157833_j65481071395957_1_alg».proof.Proof.KIRun
import Idealize.ShloMosaic.Lib.Pipeline.Value
import Idealize.ShloMosaic.Lib.ValueIdx
import Idealize.ShloMosaic.Lib.StableHlo.Run

set_option maxRecDepth 16384

noncomputable section

namespace Cert.KernelIdeal.Glue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (ρ : Dev nD → PrngReg) (c : Dev nD)

/-! ## What each host stretch leaves in a buffer, as a term over the stretch's entry contents -/

section Terms
variable (W : Valuation τ sig (Elt Ideal))

/-- The flattened activations: the cast of the first argument, reshaped. -/
theorem v3_after :
    @Eq (FVec Ideal S8192x1024 .bf16) (StableHlo.after hostOps0 W (Proc.devRef .tc main_v3))
      (shapeCast S8192x1024 (truncf .bf16 (W (Proc.devRef .tc main_arg0) : FVec Ideal S4x2048x1024 .f32) bitsLt_bf16_f32)
        shapeCasts_S4x2048x1024_S8192x1024) := by
  after_results
  rfl

/-- The three weight matrices, in the order they are set side by side. -/
abbrev pieces : List ((s : Shape) × (s.Idx → EReal)) :=
  [⟨S1024x1024, (W (Proc.devRef .tc main_arg1) : FVec Ideal S1024x1024 .f32)⟩,
   ⟨S1024x1024, (W (Proc.devRef .tc main_arg2) : FVec Ideal S1024x1024 .f32)⟩,
   ⟨S1024x1024, (W (Proc.devRef .tc main_arg3) : FVec Ideal S1024x1024 .f32)⟩]

/-- The fused weights: the cast of the three weight matrices set side by side along the columns. -/
theorem v2_after :
    @Eq (FVec Ideal S1024x3072 .bf16) (StableHlo.after hostOps0 W (Proc.devRef .tc main_v2))
      (truncf .bf16 (concatenate (α := EReal) S1024x3072 1 (pieces W)
        concatenates_S1024x1024_S1024x1024_S1024x1024_S1024x3072_d1 : FVec Ideal S1024x3072 .f32) bitsLt_bf16_f32) := by
  after_results
  rfl

/-- The fused product seen as batch × sequence × columns. -/
abbrev cube : FVec Ideal S4x2048x3072 .bf16 :=
  shapeCast S4x2048x3072 (W (Proc.devRef .tc main_v4) : FVec Ideal S8192x3072 .bf16) shapeCasts_S8192x3072_S4x2048x3072

theorem v6_after :
    @Eq (FVec Ideal S4x2048x1024 .bf16) (StableHlo.after hostOps1 W (Proc.devRef .tc main_v6))
      (extractStridedSlice S4x2048x1024 ![0, 0, 0] (cube W) slices_S4x2048x3072_S4x2048x1024_0_0_0) := by
  after_results
  rfl
theorem v7_after :
    @Eq (FVec Ideal S4x2048x1024 .bf16) (StableHlo.after hostOps1 W (Proc.devRef .tc main_v7))
      (extractStridedSlice S4x2048x1024 ![0, 0, 1024] (cube W) slices_S4x2048x3072_S4x2048x1024_0_0_1024) := by
  after_results
  rfl
theorem v8_after :
    @Eq (FVec Ideal S4x2048x1024 .bf16) (StableHlo.after hostOps1 W (Proc.devRef .tc main_v8))
      (extractStridedSlice S4x2048x1024 ![0, 0, 2048] (cube W) slices_S4x2048x3072_S4x2048x1024_0_0_2048) := by
  after_results
  rfl

theorem v10_after :
    @Eq (FVec Ideal S4x2048x1024 .f32) (StableHlo.after hostOps2 W (Proc.devRef .tc main_v10))
      (extf .f32 (W (Proc.devRef .tc main_v9) : FVec Ideal S4x2048x1024 .bf16) bitsLt_bf16_f32) := by
  after_results

end Terms

/-! ## The stretches' results read at an index -/

/-- Row `b·2048 + s` of the flattened activations is row `s` of batch element `b`. -/
theorem x_flat (b : Fin 4) (s : Fin 2048) (k : Fin 1024) :
    (E1 m ρ c main_v3 : S8192x1024.Idx → EReal) (ix2 (⟨b.val * 2048 + s.val, by omega⟩ : Fin 8192) k)
      = (m ((c : Thread nD τ).loc main_arg0) : S4x2048x1024.Idx → EReal) (ix3 b s k) := by
  show (StableHlo.after hostOps0 (W0 m ρ c) (Proc.devRef .tc main_v3) : FVec Ideal S8192x1024 .bf16) _ = _
  rw [v3_after]
  refine (shapeCast_apply _ _ _ (ix3 b s k) ?_).trans rfl
  rw [Shape.rowMajor_val_three, Shape.rowMajor_val_two]
  rfl

/-- A column of the fused weights read in the piece it falls in: piece `n` of the three, `pre` columns before it. -/
theorem fused_piece (W : Valuation τ sig (Elt Ideal)) (n : Nat) (hn : n < (pieces W).length)
    (x : FVec Ideal S1024x1024 .f32) (pre : Nat) (hx : (pieces W)[n] = ⟨S1024x1024, x⟩)
    (hpre : ((((pieces W).take n).map (·.1)).map fun s : Shape =>
      if h : s.rank = S1024x3072.rank then s.size ((1 : Fin S1024x3072.rank).cast h.symm) else 0).sum = pre)
    (k : Fin 1024) (e : Fin 1024) (col : Fin 3072) (hcol : pre + e.val = col.val) :
    (StableHlo.after hostOps0 W (Proc.devRef .tc main_v2) : FVec Ideal S1024x3072 .bf16) (ix2 k col) = x (ix2 k e) := by
  rw [v2_after]
  show concatenate (α := EReal) S1024x3072 1 (pieces W) concatenates_S1024x1024_S1024x1024_S1024x1024_S1024x3072_d1 (ix2 k col) = _
  refine concatenate_apply_piece (t := S1024x3072) (1 : Fin 2) (pieces W) concatenates_S1024x1024_S1024x1024_S1024x1024_S1024x3072_d1
    (ix2 k col) n hn S1024x1024 x hx rfl pre hpre (ix2 k e) ?_ hcol
  intro a
  match a with
  | ⟨0, _⟩ => exact fun _ => rfl
  | ⟨1, _⟩ => exact fun h => absurd rfl h

section Fused
variable (W : Valuation τ sig (Elt Ideal)) (k e : Fin 1024)

theorem fused_q_of : (StableHlo.after hostOps0 W (Proc.devRef .tc main_v2) : FVec Ideal S1024x3072 .bf16) (ix2 k (⟨e.val, by omega⟩ : Fin 3072))
    = (W (Proc.devRef .tc main_arg1) : FVec Ideal S1024x1024 .f32) (ix2 k e) :=
  fused_piece W 0 (by show 0 < 3; omega) _ 0 rfl rfl k e _ (by show 0 + e.val = e.val; omega)
theorem fused_k_of : (StableHlo.after hostOps0 W (Proc.devRef .tc main_v2) : FVec Ideal S1024x3072 .bf16) (ix2 k (⟨e.val + 1024, by omega⟩ : Fin 3072))
    = (W (Proc.devRef .tc main_arg2) : FVec Ideal S1024x1024 .f32) (ix2 k e) :=
  fused_piece W 1 (by show 1 < 3; omega) _ 1024 rfl rfl k e _ (by show 1024 + e.val = e.val + 1024; omega)
theorem fused_v_of : (StableHlo.after hostOps0 W (Proc.devRef .tc main_v2) : FVec Ideal S1024x3072 .bf16) (ix2 k (⟨e.val + 2048, by omega⟩ : Fin 3072))
    = (W (Proc.devRef .tc main_arg3) : FVec Ideal S1024x1024 .f32) (ix2 k e) :=
  fused_piece W 2 (by show 2 < 3; omega) _ 2048 rfl rfl k e _ (by show 2048 + e.val = e.val + 2048; omega)

end Fused

/-- Column `e` of the fused weights is column `e` of the query weights … -/
theorem w_fused_q (k : Fin 1024) (e : Fin 1024) :
    (E1 m ρ c main_v2 : S1024x3072.Idx → EReal) (ix2 k (⟨e.val, by omega⟩ : Fin 3072))
      = (m ((c : Thread nD τ).loc main_arg1) : S1024x1024.Idx → EReal) (ix2 k e) :=
  fused_q_of (W0 m ρ c) k e
/-- … column `e + 1024` is column `e` of the key weights … -/
theorem w_fused_k (k : Fin 1024) (e : Fin 1024) :
    (E1 m ρ c main_v2 : S1024x3072.Idx → EReal) (ix2 k (⟨e.val + 1024, by omega⟩ : Fin 3072))
      = (m ((c : Thread nD τ).loc main_arg2) : S1024x1024.Idx → EReal) (ix2 k e) :=
  fused_k_of (W0 m ρ c) k e
/-- … and column `e + 2048` is column `e` of the value weights. -/
theorem w_fused_v (k : Fin 1024) (e : Fin 1024) :
    (E1 m ρ c main_v2 : S1024x3072.Idx → EReal) (ix2 k (⟨e.val + 2048, by omega⟩ : Fin 3072))
      = (m ((c : Thread nD τ).loc main_arg3) : S1024x1024.Idx → EReal) (ix2 k e) :=
  fused_v_of (W0 m ρ c) k e

/-- The fused product seen as a cube, read at an index: row `b·2048 + s` of the matrix. -/
theorem cube_apply (W : Valuation τ sig (Elt Ideal)) (b : Fin 4) (s : Fin 2048) (col : Fin 3072) :
    cube W (ix3 b s col)
      = (W (Proc.devRef .tc main_v4) : FVec Ideal S8192x3072 .bf16) (ix2 (⟨b.val * 2048 + s.val, by omega⟩ : Fin 8192) col) := by
  refine shapeCast_apply _ _ _ (ix2 (⟨b.val * 2048 + s.val, by omega⟩ : Fin 8192) col) ?_
  rw [Shape.rowMajor_val_three, Shape.rowMajor_val_two]
  rfl

/-- A cut of 1024 columns of the cube starting at column `off`, read at an index. -/
theorem cut_apply (x : FVec Ideal S4x2048x3072 .bf16) (off : Nat) (h : S4x2048x3072.Slices ![0, 0, off] S4x2048x1024)
    (b : Fin 4) (s : Fin 2048) (e : Fin 1024) (col : Fin 3072) (hcol : col.val = off + e.val) :
    extractStridedSlice S4x2048x1024 ![0, 0, off] x h (ix3 b s e) = x (ix3 b s col) := by
  refine extractStridedSlice_apply _ _ _ (ix3 b s e) (ix3 b s col) fun a => ?_
  match a with
  | ⟨0, _⟩ => show b.val = 0 + b.val; omega
  | ⟨1, _⟩ => show s.val = 0 + s.val; omega
  | ⟨2, _⟩ => exact hcol

section Cuts
variable (W : Valuation τ sig (Elt Ideal)) (b : Fin 4) (s : Fin 2048) (e : Fin 1024)

theorem q_cut_of : (StableHlo.after hostOps1 W (Proc.devRef .tc main_v6) : FVec Ideal S4x2048x1024 .bf16) (ix3 b s e)
    = (W (Proc.devRef .tc main_v4) : FVec Ideal S8192x3072 .bf16) (ix2 (⟨b.val * 2048 + s.val, by omega⟩ : Fin 8192) (⟨e.val, by omega⟩ : Fin 3072)) := by
  rw [v6_after, cut_apply (cube W) 0 _ b s e ⟨e.val, by omega⟩ (by show e.val = 0 + e.val; omega), cube_apply]
theorem k_cut_of : (StableHlo.after hostOps1 W (Proc.devRef .tc main_v7) : FVec Ideal S4x2048x1024 .bf16) (ix3 b s e)
    = (W (Proc.devRef .tc main_v4) : FVec Ideal S8192x3072 .bf16) (ix2 (⟨b.val * 2048 + s.val, by omega⟩ : Fin 8192) (⟨e.val + 1024, by omega⟩ : Fin 3072)) := by
  rw [v7_after, cut_apply (cube W) 1024 _ b s e ⟨e.val + 1024, by omega⟩ (by show e.val + 1024 = 1024 + e.val; omega), cube_apply]
theorem v_cut_of : (StableHlo.after hostOps1 W (Proc.devRef .tc main_v8) : FVec Ideal S4x2048x1024 .bf16) (ix3 b s e)
    = (W (Proc.devRef .tc main_v4) : FVec Ideal S8192x3072 .bf16) (ix2 (⟨b.val * 2048 + s.val, by omega⟩ : Fin 8192) (⟨e.val + 2048, by omega⟩ : Fin 3072)) := by
  rw [v8_after, cut_apply (cube W) 2048 _ b s e ⟨e.val + 2048, by omega⟩ (by show e.val + 2048 = 2048 + e.val; omega), cube_apply]

end Cuts

/-- The queries at (b, s, e) are the fused product's row `b·2048 + s` at column `e` … -/
theorem q_cut (b : Fin 4) (s : Fin 2048) (e : Fin 1024) :
    (E3 m ρ c main_v6 : S4x2048x1024.Idx → EReal) (ix3 b s e)
      = (W2 m ρ c (Proc.devRef .tc main_v4) : S8192x3072.Idx → EReal)
          (ix2 (⟨b.val * 2048 + s.val, by omega⟩ : Fin 8192) (⟨e.val, by omega⟩ : Fin 3072)) :=
  q_cut_of (W2 m ρ c) b s e
/-- … the keys the same row at column `e + 1024` … -/
theorem k_cut (b : Fin 4) (s : Fin 2048) (e : Fin 1024) :
    (E3 m ρ c main_v7 : S4x2048x1024.Idx → EReal) (ix3 b s e)
      = (W2 m ρ c (Proc.devRef .tc main_v4) : S8192x3072.Idx → EReal)
          (ix2 (⟨b.val * 2048 + s.val, by omega⟩ : Fin 8192) (⟨e.val + 1024, by omega⟩ : Fin 3072)) :=
  k_cut_of (W2 m ρ c) b s e
/-- … and the values the same row at column `e + 2048`. -/
theorem v_cut (b : Fin 4) (s : Fin 2048) (e : Fin 1024) :
    (E3 m ρ c main_v8 : S4x2048x1024.Idx → EReal) (ix3 b s e)
      = (W2 m ρ c (Proc.devRef .tc main_v4) : S8192x3072.Idx → EReal)
          (ix2 (⟨b.val * 2048 + s.val, by omega⟩ : Fin 8192) (⟨e.val + 2048, by omega⟩ : Fin 3072)) :=
  v_cut_of (W2 m ρ c) b s e

/-- The result is the attention region's output, widened: the same extended reals. -/
theorem result_cast (i : S4x2048x1024.Idx) :
    (W5 m ρ c (Proc.devRef .tc main_v10) : S4x2048x1024.Idx → EReal) i
      = (W4 m ρ c (Proc.devRef .tc main_v9) : S4x2048x1024.Idx → EReal) i := by
  show (StableHlo.after hostOps2 (W4 m ρ c) (Proc.devRef .tc main_v10) : FVec Ideal S4x2048x1024 .f32) i = _
  rw [v10_after]
  rfl

end Cert.KernelIdeal.Glue

end
-- ==== Proof.KIWhole.lean ====
/-
  The idealized kernel's result is the specification of its four arguments.

  The result buffer holds the attention region's output array (the last host operation is a change of
  float format, the identity on extended reals). That array is, row by row, one row of attention of the
  region's three input arrays. Those are the three column blocks of the projection region's output
  array, with its 8192 rows regrouped as 4 × 2048; that array is the product of the flattened
  activations with the three weight matrices laid side by side; so entry (b, s, e) of the queries, keys
  and values is the projection of activation row (b, s) with column e of the matching weight matrix.
-/
import proofs.«157833_j65481071395957_1_alg».proof.Proof.Spec
import proofs.«157833_j65481071395957_1_alg».proof.Proof.KIRun
import proofs.«157833_j65481071395957_1_alg».proof.Proof.KIAttnPayload
import proofs.«157833_j65481071395957_1_alg».proof.Proof.KIProjValue
import proofs.«157833_j65481071395957_1_alg».proof.Proof.KIAttnValue
import proofs.«157833_j65481071395957_1_alg».proof.Proof.KIGlue

noncomputable section

namespace Cert.KernelIdeal.Whole

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The four arguments as launched, as arrays of extended reals. -/
abbrev xs : S4x2048x1024.Idx → EReal := m ((c : Thread nD τ).loc main_arg0)
abbrev wq : S1024x1024.Idx → EReal := m ((c : Thread nD τ).loc main_arg1)
abbrev wk : S1024x1024.Idx → EReal := m ((c : Thread nD τ).loc main_arg2)
abbrev wv : S1024x1024.Idx → EReal := m ((c : Thread nD τ).loc main_arg3)

/-- The arrays between the items, as arrays of extended reals: the fused weights and the projection region's
    output; the queries, keys and values the attention region is entered with. -/
abbrev fusedW : S1024x3072.Idx → EReal := E1 m ρ c main_v2
abbrev fusedOut : S8192x3072.Idx → EReal := W2 m ρ c (Proc.devRef .tc main_v4)
abbrev qArr : S4x2048x1024.Idx → EReal := E3 m ρ c main_v6
abbrev kArr : S4x2048x1024.Idx → EReal := E3 m ρ c main_v7
abbrev vArr : S4x2048x1024.Idx → EReal := E3 m ρ c main_v8

/-- The projection region's output at row b·2048 + s, column j: activation row (b, s) against column j of the
    fused weight matrix. -/
theorem fused_at (b : Fin 4) (s : Fin 2048) (j : Fin 3072) (row : Fin 8192) (hrow : row = ⟨b.val * 2048 + s.val, by omega⟩) :
    fusedOut m ρ c (ix2 row j) = ∑ k : Fin 1024, xs m c (ix3 b s k) * fusedW m ρ c (ix2 k j) := by
  subst hrow
  have h : fusedOut m ρ c = ProjValue.product (E1 m ρ c main_v3) (E1 m ρ c main_v2) :=
    (W2_arr m ρ c 2).trans (ProjValue.proj_array (E1 m ρ) c)
  rw [h, ProjValue.product_apply]
  exact Finset.sum_congr rfl fun k _ => congrArg (· * fusedW m ρ c (ix2 k j)) (Glue.x_flat m ρ c b s k)

/-- The queries the attention region is entered with are the projection by the first weight matrix. -/
theorem queries_at (b : Fin 4) (s : Fin 2048) (e : Fin 1024) :
    qArr m ρ c (ix3 b s e) = Cert.Spec.proj (xs m c) (wq m c) b s e := by
  refine (Glue.q_cut m ρ c b s e).trans ?_
  refine (fused_at m ρ c b s _ _ rfl).trans ?_
  unfold Cert.Spec.proj
  exact Finset.sum_congr rfl fun k _ => congrArg (xs m c (ix3 b s k) * ·) (Glue.w_fused_q m ρ c k e)

/-- The keys likewise, by the second. -/
theorem keys_at (b : Fin 4) (s : Fin 2048) (e : Fin 1024) :
    kArr m ρ c (ix3 b s e) = Cert.Spec.proj (xs m c) (wk m c) b s e := by
  refine (Glue.k_cut m ρ c b s e).trans ?_
  refine (fused_at m ρ c b s _ _ rfl).trans ?_
  unfold Cert.Spec.proj
  exact Finset.sum_congr rfl fun k _ => congrArg (xs m c (ix3 b s k) * ·) (Glue.w_fused_k m ρ c k e)

/-- The values, by the third. -/
theorem values_at (b : Fin 4) (s : Fin 2048) (e : Fin 1024) :
    vArr m ρ c (ix3 b s e) = Cert.Spec.proj (xs m c) (wv m c) b s e := by
  refine (Glue.v_cut m ρ c b s e).trans ?_
  refine (fused_at m ρ c b s _ _ rfl).trans ?_
  unfold Cert.Spec.proj
  exact Finset.sum_congr rfl fun k _ => congrArg (xs m c (ix3 b s k) * ·) (Glue.w_fused_v m ρ c k e)

/-- The result buffer at the end of the run is the specification of the arguments. -/
theorem result_eq : W5 m ρ c (Proc.devRef .tc main_v10) = Cert.Spec.G (xs m c) (wq m c) (wk m c) (wv m c) := by
  funext i
  obtain ⟨b, s, d, rfl⟩ : ∃ (b : Fin 4) (s : Fin 2048) (d : Fin 1024), i = ix3 b s d := ⟨i 0, i 1, i 2, eq_ix3 i⟩
  refine (Glue.result_cast m ρ c (ix3 b s d)).trans ?_
  have h := congrFun ((W4_arr m ρ c 3).trans (AttnValue.attn_array (E3 m ρ) c AttnPayload.k1_pay1_apply)) (ix3 b s d)
  refine h.trans ?_
  rw [AttnValue.A_eq_attnOf, AttnValue.attnOf_apply, Cert.Spec.G_apply]
  unfold Cert.Spec.out
  have e1 : (fun e => qArr m ρ c (ix3 b s e)) = Cert.Spec.proj (xs m c) (wq m c) b s :=
    funext fun e => queries_at m ρ c b s e
  have e2 : (fun j e => kArr m ρ c (ix3 b j e)) = Cert.Spec.proj (xs m c) (wk m c) b :=
    funext fun j => funext fun e => keys_at m ρ c b j e
  have e3 : (fun j e => vArr m ρ c (ix3 b j e)) = Cert.Spec.proj (xs m c) (wv m c) b :=
    funext fun j => funext fun e => values_at m ρ c b j e
  rw [e1, e2, e3]

end Cert.KernelIdeal.Whole

end
-- ==== Proof.lean ====
/-
  Self-attention with fused projections against its plain reference, over the extended reals.

  The kernel's program casts the activations x[4, 2048, 1024] and the three weight matrices, lays the
  weights side by side into one 1024 × 3072 matrix, multiplies the flattened activations by it in one
  tiled product (8 blocks of 1024 rows), cuts the product into queries, keys and values, and for each
  batch element and each block of 512 query rows takes the softmax of the scaled query–key products
  over all 2048 keys and multiplies by the values. The reference takes the three projections, the
  scores divided by √1024, the softmax and the product with the values as whole-array operations.

  Both compute, at (b, s, d): Σ_j exp(L_j − M) / (Σ_j' exp(L_j' − M)) · V(b, j, d), with
  L_j = (Σ_e Q(b, s, e) · K(b, j, e)) · 2⁻⁵, M the maximum of the L_j (taken from −∞), and Q, K, V the
  projections Σ_k x(b, s, k) · W(k, e). The one difference is the scale: a product with 2⁻⁵ against a
  quotient by √1024 = 32, equal on every extended real. A change of float format is the identity on
  extended reals, a matrix product into a zero accumulator is the plain sum of products, and the order
  of a sum or of a maximum does not matter, so the tiling changes nothing.

  The frames: each kernel program is run item by item — host operations, projection region, host
  operations, attention region, host operation — with the buffers' contents at each boundary named; no
  item writes an argument array. The idealized kernel's run also names the result buffer's value, which
  is read back through the two regions (each output array is covered by its blocks, each block what the
  body stores) and the host operations between them to the specification of the arguments; the
  reference's run is read one operation at a time to the same specification.
-/
import proofs.«157833_j65481071395957_1_alg».proof.Defs
import proofs.«157833_j65481071395957_1_alg».proof.Proof.Gen.Kernel
import proofs.«157833_j65481071395957_1_alg».proof.Proof.Gen.KernelIdeal
import proofs.«157833_j65481071395957_1_alg».proof.Proof.Gen.ReferenceIdeal
import proofs.«157833_j65481071395957_1_alg».proof.Proof.Gen.Pre_finite_inputs
import proofs.«157833_j65481071395957_1_alg».proof.Proof.Frames
import proofs.«157833_j65481071395957_1_alg».proof.Proof.RefIsSpec
import proofs.«157833_j65481071395957_1_alg».proof.Proof.KIWhole

noncomputable section

namespace Cert.Proof

open Idealize.ShloMosaic Idealize.ShloMosaic.TcCoe Idealize.SL.Sem

/-- Run from memories that agree on the arguments, the idealized kernel and the idealized reference both
    end with the result buffer at the specification of the kernel's arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Whole.result_eq m ρ c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.RefSpec.ref_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.Proof.Reference.frame_ri, trivial, algebraic⟩

end Cert.Proof

end
